-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x2 : Shape := ⟨4, ![8, 256, 256, 2]⟩
abbrev S64x64x128 : Shape := ⟨3, ![64, 64, 128]⟩
abbrev S_ : Shape := ⟨0, ![]⟩

class Facts : Prop where
  bcast_S_S8x256x256x2 : S_.BroadcastsInDim S8x256x256x2 (![] : Fin 0 → Fin S8x256x256x2.rank)
  reducesTo_S8x256x256x2_S_d0_1_2_3 : S8x256x256x2.ReducesTo [0, 1, 2, 3] S_
  h_S_ : 0 < S_.numel
  bcast_S_S64x64x128 : S_.BroadcastsInDim S64x64x128 (![] : Fin 0 → Fin S64x64x128.rank)
  reducesTo_S64x64x128_S_d0_1_2 : S64x64x128.ReducesTo [0, 1, 2] S_

variable [Facts]

def fn {F : FTy → Type} [FloatOps F] (main_arg0 : FVec F S8x256x256x2 .f32) (main_arg1 : FVec F S64x64x128 .f32) : IVec S_ 1 :=
  let main_v0 : FVec F S8x256x256x2 .f32 := Host.absf main_arg0
  let main_cst : FVec F S_ .f32 := constant S_ .f32 0x7F800000#32
  let main_v1 : FVec F S8x256x256x2 .f32 := broadcastInDim S8x256x256x2 ![] bcast_S_S8x256x256x2 main_cst
  let main_v2 : IVec S8x256x256x2 1 := cmpf .olt main_v0 main_v1
  let main_c : IVec S_ 1 := constantI S_ 1 1#1
  let main_v3 : IVec S_ 1 := (fun x v => Host.reduce IntOp.andi x v reducesTo_S8x256x256x2_S_d0_1_2_3 h_S_) main_v2 main_c
  let main_v4 : FVec F S64x64x128 .f32 := Host.absf main_arg1
  let main_cst_0 : FVec F S_ .f32 := constant S_ .f32 0x7F800000#32
  let main_v5 : FVec F S64x64x128 .f32 := broadcastInDim S64x64x128 ![] bcast_S_S64x64x128 main_cst_0
  let main_v6 : IVec S64x64x128 1 := cmpf .olt main_v4 main_v5
  let main_c_1 : IVec S_ 1 := constantI S_ 1 1#1
  let main_v7 : IVec S_ 1 := (fun x v => Host.reduce IntOp.andi x v reducesTo_S64x64x128_S_d0_1_2 h_S_) main_v6 main_c_1
  let main_v8 : IVec S_ 1 := andi main_v3 main_v7
  let main_cst_2 : FVec F S_ .f32 := constant S_ .f32 0xCC000000#32
  let main_v9 : FVec F S8x256x256x2 .f32 := broadcastInDim S8x256x256x2 ![] bcast_S_S8x256x256x2 main_cst_2
  let main_v10 : IVec S8x256x256x2 1 := cmpf .oge main_arg0 main_v9
  let main_cst_3 : FVec F S_ .f32 := constant S_ .f32 0x4C000000#32
  let main_v11 : FVec F S8x256x256x2 .f32 := broadcastInDim S8x256x256x2 ![] bcast_S_S8x256x256x2 main_cst_3
  let main_v12 : IVec S8x256x256x2 1 := cmpf .olt main_arg0 main_v11
  let main_v13 : IVec S8x256x256x2 1 := andi main_v10 main_v12
  let main_c_4 : IVec S_ 1 := constantI S_ 1 1#1
  let main_v14 : IVec S_ 1 := (fun x v => Host.reduce IntOp.andi x v reducesTo_S8x256x256x2_S_d0_1_2_3 h_S_) main_v13 main_c_4
  let main_v15 : IVec S_ 1 := andi main_v8 main_v14
  main_v15
-- ==== Kernel.lean ====
abbrev S8x256x256x2 : Shape := ⟨4, ![8, 256, 256, 2]⟩
abbrev S64x64x128 : Shape := ⟨3, ![64, 64, 128]⟩
abbrev S524288x2 : Shape := ⟨2, ![524288, 2]⟩
abbrev S4096x128 : Shape := ⟨2, ![4096, 128]⟩
abbrev S524288x128 : Shape := ⟨2, ![524288, 128]⟩
abbrev S256x2 : Shape := ⟨2, ![256, 2]⟩
abbrev S256x128 : Shape := ⟨2, ![256, 128]⟩
abbrev S256x1 : Shape := ⟨2, ![256, 1]⟩
abbrev S256 : Shape := ⟨1, ![256]⟩
abbrev S256x4096 : Shape := ⟨2, ![256, 4096]⟩
abbrev S8x256x256x128 : Shape := ⟨4, ![8, 256, 256, 128]⟩

abbrev nBuf : Space → Nat
  | .hbm => 7
  | .vmem => 5
  | .smem => 0
  | _ => 0

abbrev bufTy : (tb : Table) → Fin (tcTables nBuf tb) → BufTy
  | .hbm, ⟨0, _⟩ => ⟨S8x256x256x2, .f32⟩
  | .hbm, ⟨1, _⟩ => ⟨S64x64x128, .f32⟩
  | .hbm, ⟨2, _⟩ => ⟨S524288x2, .f32⟩
  | .hbm, ⟨3, _⟩ => ⟨S4096x128, .f32⟩
  | .hbm, ⟨4, _⟩ => ⟨S4096x128, .bf16⟩
  | .hbm, ⟨5, _⟩ => ⟨S524288x128, .f32⟩
  | .hbm, ⟨6, _⟩ => ⟨S8x256x256x128, .f32⟩
  | .local _ .vmem, ⟨0, _⟩ => ⟨S256x2, .f32⟩
  | .local _ .vmem, ⟨1, _⟩ => ⟨S256x2, .f32⟩
  | .local _ .vmem, ⟨2, _⟩ => ⟨S4096x128, .bf16⟩
  | .local _ .vmem, ⟨3, _⟩ => ⟨S256x128, .f32⟩
  | .local _ .vmem, ⟨4, _⟩ => ⟨S256x128, .f32⟩
  | _, _ => ⟨S8x256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x256x256x2_S524288x2 : S8x256x256x2.ShapeCasts S524288x2
  shapeCasts_S64x64x128_S4096x128 : S64x64x128.ShapeCasts S4096x128
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  shapeCasts_S256x2_S256x2 : S256x2.ShapeCasts S256x2
  slices_S256x2_o0_0_S256x1 : S256x2.Slices ![0, 0] S256x1
  shapeCasts_S256x1_S256 : S256x1.ShapeCasts S256
  slices_S256x2_o0_1_S256x1 : S256x2.Slices ![0, 1] S256x1
  iota_S256x4096_d1_w32 : S256x4096.Iotas .tc 32 [1]
  shapeCasts_S256_S256x1 : S256.ShapeCasts S256x1
  broadcasts_S256x1_S256x4096 : S256x1.Broadcasts S256x4096
  shapeCasts_S256x1_S256x1 : S256x1.ShapeCasts S256x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x128_S256x128_0_0 : ∀ a, (![0, 0] : Fin 2 → Nat) a + S256x128.size a ≤ S256x128.size a
  h_S256x128 : 0 < S256x128.numel
  shapeCasts_S524288x128_S8x256x256x128 : S524288x128.ShapeCasts S8x256x256x128
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S524288x2.size a
  hwx0_0 : ∀ i : grid0.Coords, EltTy.bits .f32 = 32 ∨ (Rect.block (s := S524288x2) S256x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S524288x128.size a
  hwx0_2 : ∀ i : grid0.Coords, EltTy.bits .f32 = 32 ∨ (Rect.block (s := S524288x128) S256x128.size (cc0_transform_2 i) (hinb0_2 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x256x2 : Shape := ⟨4, ![8, 256, 256, 2]⟩
abbrev S64x64x128 : Shape := ⟨3, ![64, 64, 128]⟩
abbrev S8x256x256x1 : Shape := ⟨4, ![8, 256, 256, 1]⟩
abbrev S8x256x256 : Shape := ⟨3, ![8, 256, 256]⟩
abbrev S_ : Shape := ⟨0, ![]⟩
abbrev S8x256x256x128 : Shape := ⟨4, ![8, 256, 256, 128]⟩

abbrev nBuf : Space → Nat
  | .hbm => 168
  | .vmem => 0
  | .smem => 0
  | _ => 0

abbrev hbmTy0_0 (i : Nat) : BufTy := match i % 128 with
  | 0 => ⟨S8x256x256x2, .f32⟩
  | 1 => ⟨S64x64x128, .f32⟩
  | 2 => ⟨S8x256x256x1, .f32⟩
  | 3 => ⟨S8x256x256, .f32⟩
  | 4 => ⟨S_, .f32⟩
  | 5 => ⟨S8x256x256, .f32⟩
  | 6 => ⟨S8x256x256, .f32⟩
  | 7 => ⟨S_, .f32⟩
  | 8 => ⟨S8x256x256, .f32⟩
  | 9 => ⟨S8x256x256, .f32⟩
  | 10 => ⟨S_, .f32⟩
  | 11 => ⟨S8x256x256, .f32⟩
  | 12 => ⟨S8x256x256, .f32⟩
  | 13 => ⟨S8x256x256x1, .f32⟩
  | 14 => ⟨S8x256x256, .f32⟩
  | 15 => ⟨S_, .f32⟩
  | 16 => ⟨S8x256x256, .f32⟩
  | 17 => ⟨S8x256x256, .f32⟩
  | 18 => ⟨S_, .f32⟩
  | 19 => ⟨S8x256x256, .f32⟩
  | 20 => ⟨S8x256x256, .f32⟩
  | 21 => ⟨S_, .f32⟩
  | 22 => ⟨S8x256x256, .f32⟩
  | 23 => ⟨S8x256x256, .f32⟩
  | 24 => ⟨S8x256x256, .f32⟩
  | 25 => ⟨S8x256x256, .i32⟩
  | 26 => ⟨S8x256x256, .f32⟩
  | 27 => ⟨S8x256x256, .i32⟩
  | 28 => ⟨S_, .i32⟩
  | 29 => ⟨S8x256x256, .i32⟩
  | 30 => ⟨S8x256x256, .i32⟩
  | 31 => ⟨S_, .i32⟩
  | 32 => ⟨S_, .i32⟩
  | 33 => ⟨S_, .i32⟩
  | 34 => ⟨S8x256x256, .i32⟩
  | 35 => ⟨S8x256x256, .i32⟩
  | 36 => ⟨S_, .i32⟩
  | 37 => ⟨S8x256x256, .i32⟩
  | 38 => ⟨S8x256x256, .i32⟩
  | 39 => ⟨S_, .i32⟩
  | 40 => ⟨S8x256x256, .i32⟩
  | 41 => ⟨S8x256x256, .i32⟩
  | 42 => ⟨S_, .i32⟩
  | 43 => ⟨S_, .i32⟩
  | 44 => ⟨S_, .i32⟩
  | 45 => ⟨S8x256x256, .i32⟩
  | 46 => ⟨S8x256x256, .i32⟩
  | 47 => ⟨S_, .i32⟩
  | 48 => ⟨S8x256x256, .i32⟩
  | 49 => ⟨S8x256x256, .i32⟩
  | 50 => ⟨S_, .i32⟩
  | 51 => ⟨S_, .i32⟩
  | 52 => ⟨S_, .i32⟩
  | 53 => ⟨S8x256x256, .i32⟩
  | 54 => ⟨S8x256x256, .i32⟩
  | 55 => ⟨S_, .i32⟩
  | 56 => ⟨S8x256x256, .i32⟩
  | 57 => ⟨S8x256x256, .i32⟩
  | 58 => ⟨S_, .i32⟩
  | 59 => ⟨S_, .i32⟩
  | 60 => ⟨S_, .i32⟩
  | 61 => ⟨S8x256x256, .i32⟩
  | 62 => ⟨S8x256x256, .i32⟩
  | 63 => ⟨S_, .i32⟩
  | 64 => ⟨S8x256x256, .i32⟩
  | 65 => ⟨S8x256x256, .i32⟩
  | 66 => ⟨S_, .i32⟩
  | 67 => ⟨S8x256x256, .i32⟩
  | 68 => ⟨S8x256x256, .i1⟩
  | 69 => ⟨S_, .i32⟩
  | 70 => ⟨S8x256x256, .i32⟩
  | 71 => ⟨S8x256x256, .i32⟩
  | 72 => ⟨S8x256x256, .i32⟩
  | 73 => ⟨S_, .i32⟩
  | 74 => ⟨S8x256x256, .i32⟩
  | 75 => ⟨S8x256x256, .i1⟩
  | 76 => ⟨S_, .i32⟩
  | 77 => ⟨S8x256x256, .i32⟩
  | 78 => ⟨S8x256x256, .i32⟩
  | 79 => ⟨S8x256x256, .i32⟩
  | 80 => ⟨S8x256x256x1, .i32⟩
  | 81 => ⟨S8x256x256x1, .i32⟩
  | 82 => ⟨S8x256x256x2, .i32⟩
  | 83 => ⟨S8x256x256x128, .f32⟩
  | 84 => ⟨S_, .i32⟩
  | 85 => ⟨S8x256x256, .i32⟩
  | 86 => ⟨S8x256x256, .i1⟩
  | 87 => ⟨S_, .i32⟩
  | 88 => ⟨S8x256x256, .i32⟩
  | 89 => ⟨S8x256x256, .i32⟩
  | 90 => ⟨S8x256x256, .i32⟩
  | 91 => ⟨S_, .i32⟩
  | 92 => ⟨S8x256x256, .i32⟩
  | 93 => ⟨S8x256x256, .i1⟩
  | 94 => ⟨S_, .i32⟩
  | 95 => ⟨S8x256x256, .i32⟩
  | 96 => ⟨S8x256x256, .i32⟩
  | 97 => ⟨S8x256x256, .i32⟩
  | 98 => ⟨S8x256x256x1, .i32⟩
  | 99 => ⟨S8x256x256x1, .i32⟩
  | 100 => ⟨S8x256x256x2, .i32⟩
  | 101 => ⟨S8x256x256x128, .f32⟩
  | 102 => ⟨S_, .i32⟩
  | 103 => ⟨S8x256x256, .i32⟩
  | 104 => ⟨S8x256x256, .i1⟩
  | 105 => ⟨S_, .i32⟩
  | 106 => ⟨S8x256x256, .i32⟩
  | 107 => ⟨S8x256x256, .i32⟩
  | 108 => ⟨S8x256x256, .i32⟩
  | 109 => ⟨S_, .i32⟩
  | 110 => ⟨S8x256x256, .i32⟩
  | 111 => ⟨S8x256x256, .i1⟩
  | 112 => ⟨S_, .i32⟩
  | 113 => ⟨S8x256x256, .i32⟩
  | 114 => ⟨S8x256x256, .i32⟩
  | 115 => ⟨S8x256x256, .i32⟩
  | 116 => ⟨S8x256x256x1, .i32⟩
  | 117 => ⟨S8x256x256x1, .i32⟩
  | 118 => ⟨S8x256x256x2, .i32⟩
  | 119 => ⟨S8x256x256x128, .f32⟩
  | 120 => ⟨S_, .i32⟩
  | 121 => ⟨S8x256x256, .i32⟩
  | 122 => ⟨S8x256x256, .i1⟩
  | 123 => ⟨S_, .i32⟩
  | 124 => ⟨S8x256x256, .i32⟩
  | 125 => ⟨S8x256x256, .i32⟩
  | 126 => ⟨S8x256x256, .i32⟩
  | 127 => ⟨S_, .i32⟩
  | _ => ⟨S8x256x256x2, .f32⟩

abbrev hbmTy0_1 (i : Nat) : BufTy := match i % 128 with
  | 0 => ⟨S8x256x256, .i32⟩
  | 1 => ⟨S8x256x256, .i1⟩
  | 2 => ⟨S_, .i32⟩
  | 3 => ⟨S8x256x256, .i32⟩
  | 4 => ⟨S8x256x256, .i32⟩
  | 5 => ⟨S8x256x256, .i32⟩
  | 6 => ⟨S8x256x256x1, .i32⟩
  | 7 => ⟨S8x256x256x1, .i32⟩
  | 8 => ⟨S8x256x256x2, .i32⟩
  | 9 => ⟨S8x256x256x128, .f32⟩
  | 10 => ⟨S8x256x256, .f32⟩
  | 11 => ⟨S8x256x256, .f32⟩
  | 12 => ⟨S8x256x256x1, .f32⟩
  | 13 => ⟨S8x256x256, .f32⟩
  | 14 => ⟨S8x256x256, .f32⟩
  | 15 => ⟨S8x256x256x1, .f32⟩
  | 16 => ⟨S_, .f32⟩
  | 17 => ⟨S8x256x256x1, .f32⟩
  | 18 => ⟨S8x256x256x1, .f32⟩
  | 19 => ⟨S8x256x256x128, .f32⟩
  | 20 => ⟨S8x256x256x128, .f32⟩
  | 21 => ⟨S8x256x256x128, .f32⟩
  | 22 => ⟨S8x256x256x128, .f32⟩
  | 23 => ⟨S8x256x256x128, .f32⟩
  | 24 => ⟨S_, .f32⟩
  | 25 => ⟨S8x256x256x1, .f32⟩
  | 26 => ⟨S8x256x256x1, .f32⟩
  | 27 => ⟨S8x256x256x128, .f32⟩
  | 28 => ⟨S8x256x256x128, .f32⟩
  | 29 => ⟨S8x256x256x128, .f32⟩
  | 30 => ⟨S8x256x256x128, .f32⟩
  | 31 => ⟨S8x256x256x128, .f32⟩
  | 32 => ⟨S_, .f32⟩
  | 33 => ⟨S8x256x256x1, .f32⟩
  | 34 => ⟨S8x256x256x1, .f32⟩
  | 35 => ⟨S8x256x256x128, .f32⟩
  | 36 => ⟨S8x256x256x128, .f32⟩
  | 37 => ⟨S8x256x256x128, .f32⟩
  | 38 => ⟨S8x256x256x128, .f32⟩
  | 39 => ⟨S8x256x256x128, .f32⟩
  | _ => ⟨S8x256x256x2, .f32⟩

abbrev hbmTy (i : Nat) : BufTy := match i / 128 with
  | 0 => hbmTy0_0 i
  | 1 => hbmTy0_1 i
  | _ => ⟨S8x256x256x2, .f32⟩

abbrev bufTy : (tb : Table) → Fin (tcTables nBuf tb) → BufTy
  | .hbm, ⟨i, _⟩ => hbmTy i
  | _, _ => ⟨S8x256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_c_10 : Ref sig .tc := ⟨.hbm, 50, rfl⟩
abbrev main_c_11 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v26 : Ref sig .tc := ⟨.hbm, 57, rfl⟩
abbrev main_c_12 : Ref sig .tc := ⟨.hbm, 58, rfl⟩
abbrev main_c_13 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_c_14 : Ref sig .tc := ⟨.hbm, 66, rfl⟩
abbrev main_v28 : Ref sig .tc := ⟨.hbm, 67, rfl⟩
abbrev main_v29 : Ref sig .tc := ⟨.hbm, 68, rfl⟩
abbrev main_c_15 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_16 : Ref sig .tc := ⟨.hbm, 73, rfl⟩
abbrev main_v33 : Ref sig .tc := ⟨.hbm, 74, rfl⟩
abbrev main_v34 : Ref sig .tc := ⟨.hbm, 75, rfl⟩
abbrev main_c_17 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_18 : Ref sig .tc := ⟨.hbm, 84, rfl⟩
abbrev main_v42 : Ref sig .tc := ⟨.hbm, 85, rfl⟩
abbrev main_v43 : Ref sig .tc := ⟨.hbm, 86, rfl⟩
abbrev main_c_19 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_20 : Ref sig .tc := ⟨.hbm, 91, rfl⟩
abbrev main_v47 : Ref sig .tc := ⟨.hbm, 92, rfl⟩
abbrev main_v48 : Ref sig .tc := ⟨.hbm, 93, rfl⟩
abbrev main_c_21 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_22 : Ref sig .tc := ⟨.hbm, 102, rfl⟩
abbrev main_v56 : Ref sig .tc := ⟨.hbm, 103, rfl⟩
abbrev main_v57 : Ref sig .tc := ⟨.hbm, 104, rfl⟩
abbrev main_c_23 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_24 : Ref sig .tc := ⟨.hbm, 109, rfl⟩
abbrev main_v61 : Ref sig .tc := ⟨.hbm, 110, rfl⟩
abbrev main_v62 : Ref sig .tc := ⟨.hbm, 111, rfl⟩
abbrev main_c_25 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_26 : Ref sig .tc := ⟨.hbm, 120, rfl⟩
abbrev main_v70 : Ref sig .tc := ⟨.hbm, 121, rfl⟩
abbrev main_v71 : Ref sig .tc := ⟨.hbm, 122, rfl⟩
abbrev main_c_27 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_28 : Ref sig .tc := ⟨.hbm, 127, rfl⟩
abbrev main_v75 : Ref sig .tc := ⟨.hbm, 128, rfl⟩
abbrev main_v76 : Ref sig .tc := ⟨.hbm, 129, rfl⟩
abbrev main_c_29 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_30 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_31 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_32 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩

abbrev nD : Nat := 1
abbrev τ : Topo := Topo.v7x

variable {F : FTy → Type} [FloatOps F]

class Facts₀ : Prop where
  slices_S8x256x256x2_S8x256x256x1_0_0_0_0 : S8x256x256x2.Slices ![0, 0, 0, 0] S8x256x256x1
  shapeCasts_S8x256x256x1_S8x256x256 : S8x256x256x1.ShapeCasts S8x256x256
  bcast_S_S8x256x256 : S_.BroadcastsInDim S8x256x256 (![] : Fin 0 → Fin S8x256x256.rank)
  slices_S8x256x256x2_S8x256x256x1_0_0_0_1 : S8x256x256x2.Slices ![0, 0, 0, 1] S8x256x256x1
  bcast_S8x256x256_S8x256x256x1_0_1_2 : S8x256x256.BroadcastsInDim S8x256x256x1 (![0, 1, 2] : Fin 3 → Fin S8x256x256x1.rank)
  concatenates_S8x256x256x1_S8x256x256x1_S8x256x256x2_d3 : Shape.Concatenates [S8x256x256x1, S8x256x256x1] S8x256x256x2 3
  bcast_S_S8x256x256x1 : S_.BroadcastsInDim S8x256x256x1 (![] : Fin 0 → Fin S8x256x256x1.rank)
  bcast_S8x256x256x1_S8x256x256x128_0_1_2_3 : S8x256x256x1.BroadcastsInDim S8x256x256x128 (![0, 1, 2, 3] : Fin 4 → Fin S8x256x256x128.rank)
  gather_S64x64x128_S8x256x256x2_S8x256x256x128_3_01_n_n_01_3_11128_wf : GatherDims.WF S64x64x128 S8x256x256x2 S8x256x256x128 [3] [0, 1] [] [0, 1] [] 3 ![1, 1, 128]

variable [Facts₀]

def gather_S64x64x128_S8x256x256x2_S8x256x256x128_3_01_n_n_01_3_11128 : GatherDims S64x64x128 S8x256x256x2 S8x256x256x128 where
  offsetDims := [3]
  collapsedSliceDims := [0, 1]
  operandBatchingDims := []
  startIndicesBatchingDims := []
  startIndexMap := [0, 1]
  indexVectorDim := 3
  sliceSizes := ![1, 1, 128]
  wf := gather_S64x64x128_S8x256x256x2_S8x256x256x128_3_01_n_n_01_3_11128_wf

class Facts : Prop extends Facts₀ where

variable [Facts]
-- ==== Proof.PreFacts.lean ====
/-
  What the precondition says of the two argument arrays, read at the exact instance: every position is a REAL
  number p with -2^25 ≤ p < 2^25 (so that 64 · p, and with it its floor, lies in [-2^31, 2^31), the range of a
  32-bit integer), and every entry of the table is a real number.
-/
import proofs.«125254_j16896401342851_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.PreFacts

open Idealize.ShloMosaic Cert.Pre_finite_inputs

instance : Subsingleton S_.Idx := ⟨fun a b => funext fun d => d.elim0⟩

/-- The three words the precondition compares with: +∞, -2^25 and 2^25. -/
theorem ofBits_inf : Ideal.ofBits .f32 0x7F800000#32 = ⊤ := by
  simp [Ideal.ofBits, Ideal.ieee]
theorem ofBits_lo : Ideal.ofBits .f32 0xCC000000#32 = ((-33554432 : ℝ) : EReal) := by
  simp [Ideal.ofBits, Ideal.ieee, -EReal.coe_mul]; norm_num
theorem ofBits_hi : Ideal.ofBits .f32 0x4C000000#32 = ((33554432 : ℝ) : EReal) := by
  simp [Ideal.ofBits, Ideal.ieee, -EReal.coe_mul]; norm_num

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The two comparisons the precondition uses, read as order relations. -/
theorem lt_of_cmp_olt {x y : EReal} (h : Ideal.cmp .olt x y = 1#1) : x < y := by
  unfold Ideal.cmp at h
  by_contra hn
  simp [hn] at h
theorem le_of_cmp_oge {x y : EReal} (h : Ideal.cmp .oge x y = 1#1) : y ≤ x := by
  unfold Ideal.cmp at h
  by_contra hn
  simp [hn] at h

variable [Facts]

theorem of_pre (P : FVec Ideal S8x256x256x2 .f32) (E : FVec Ideal S64x64x128 .f32)
    (h : fn (F := Ideal) P E = fun _ => 1#1) :
    (∀ i, ∃ r : ℝ, P i = (r : EReal) ∧ (-33554432 : ℝ) ≤ r ∧ r < 33554432) ∧ (∀ j, ∃ r : ℝ, E j = (r : EReal)) := by
  have h0 := congrFun h ValueIdx.ix0
  dsimp only [fn] at h0
  obtain ⟨h12, h3⟩ := IntOp.andi_eq_one.mp h0
  obtain ⟨h1, h2⟩ := IntOp.andi_eq_one.mp h12
  refine ⟨fun i => ?_, fun j => ?_⟩
  · have a := Host.reduce_andi_all _ _ _ _ _ h1 i
    have b := Host.reduce_andi_all _ _ _ _ _ h3 i
    obtain ⟨b1, b2⟩ := IntOp.andi_eq_one.mp b
    change Ideal.cmp .olt (max (P i) (-(P i))) (Ideal.ofBits .f32 0x7F800000#32) = 1#1 at a
    change Ideal.cmp .oge (P i) (Ideal.ofBits .f32 0xCC000000#32) = 1#1 at b1
    change Ideal.cmp .olt (P i) (Ideal.ofBits .f32 0x4C000000#32) = 1#1 at b2
    rw [ofBits_inf] at a
    rw [ofBits_lo] at b1
    rw [ofBits_hi] at b2
    obtain ⟨r, hr⟩ := real_of_abs_lt_top _ (lt_of_cmp_olt a)
    refine ⟨r, hr, ?_, ?_⟩
    · have := le_of_cmp_oge b1
      rw [hr] at this
      exact_mod_cast this
    · have := lt_of_cmp_olt b2
      rw [hr] at this
      exact_mod_cast this
  · have a := Host.reduce_andi_all _ _ _ _ _ h2 j
    change Ideal.cmp .olt (max (E j) (-(E j))) (Ideal.ofBits .f32 0x7F800000#32) = 1#1 at a
    rw [ofBits_inf] at a
    exact real_of_abs_lt_top _ (lt_of_cmp_olt a)

end Cert.PreFacts

end
-- ==== Proof.Bilinear.lean ====
/-
  Bilinear interpolation of a 64 × 64 table of feature rows at one point of the plane, in the two spellings
  the programs use, as functions of the point's two coordinates `px`, `py` and of the table.

  Both scale a coordinate by 64, take its floor, and convert the floor to a 32-bit integer `cell`; the
  lower corner is `clip cell`, the upper corner `clip (cell + 1)`, with `clip` the clamp to [0, 63].

  * `kernelAt`: a row of 4096 weights — at flat position `k` the sum of the four corner weights whose flat
    corner index `64 · (corner row) + (corner column)` equals `k`, the fractional parts taken against the
    FLOOR itself — contracted against the table flattened to 4096 rows.
  * `refAt`: the four corners looked up in the table, combined first along the first axis, then along the
    second, the fractional parts taken against the INTEGER `cell` read back as a real.

  The two fractional parts agree exactly when the floor fits a 32-bit integer; then the two results
  are one real number: the four weights, each times its corner.
-/
import Idealize.ShloMosaic.PureOps.Ideal
import Idealize.ShloMosaic.Lib.ValueIdx

noncomputable section

namespace Cert.Bilinear

open Idealize.ShloMosaic

/-- The scale 64, and the constants one and zero, as the words both programs spell. -/
abbrev c64 : EReal := Ideal.ofBits .f32 0x42800000#32
abbrev one : EReal := Ideal.ofBits .f32 0x3F800000#32
abbrev zero : EReal := Ideal.ofBits .f32 0x00000000#32

/-- The grid cell of a scaled coordinate: its floor, converted to a 32-bit integer. -/
def cell (x : EReal) : BitVec 32 := Ideal.fptosi 32 (Ideal.liftRound Int.floor x)

/-- The clamp of a cell number to the table's range [0, 63]: the larger of it and 0, then the smaller of that and 63. -/
def clip (b : BitVec 32) : BitVec 32 := IntOp.minsi 63#32 (IntOp.maxsi 0#32 b)

/-- The fractional part of a scaled coordinate, against its floor. -/
def frac (x : EReal) : EReal := x - Ideal.liftRound Int.floor x

/-- The fractional part against the integer cell read back as a real. -/
def fracI (x : EReal) : EReal := x - (((cell x).toInt : ℝ) : EReal)

/-- The flat index of a corner: 64 · row + column, in 32-bit arithmetic. -/
def flat (r c : BitVec 32) : BitVec 32 := IntOp.addi (IntOp.muli r 64#32) c

/-- The kernel's weight at flat position `k` for the point whose scaled coordinates are `x`, `y`: each corner's weight where
    `k` is that corner's flat index, zero elsewhere, the four added in the order lower-lower, lower-upper, upper-lower,
    upper-upper. -/
def hot (x y : EReal) (k : BitVec 32) : EReal :=
  ((Scalar.select (IntOp.cmpi .eq k (flat (clip (cell x)) (clip (cell y))))
        ((one - frac x) * (one - frac y)) zero
    + Scalar.select (IntOp.cmpi .eq k (flat (clip (cell x)) (clip (IntOp.addi (cell y) 1#32))))
        ((one - frac x) * frac y) zero)
    + Scalar.select (IntOp.cmpi .eq k (flat (clip (IntOp.addi (cell x) 1#32)) (clip (cell y))))
        (frac x * (one - frac y)) zero)
    + Scalar.select (IntOp.cmpi .eq k (flat (clip (IntOp.addi (cell x) 1#32)) (clip (IntOp.addi (cell y) 1#32))))
        (frac x * frac y) zero

/-- The kernel's value at one output element: the row of weights of the point `(px, py)` contracted against the
    element's column `e` of the table flattened to 4096 rows. -/
def kernelAt (px py : EReal) (e : Fin 4096 → EReal) : EReal :=
  ∑ k : Fin 4096, hot (px * c64) (py * c64) (BitVec.ofNat 32 k.val) * e k

/-- A negative lookup index counts from the end of its axis (never the case after `clip`). -/
def wrap (b : BitVec 32) : BitVec 32 := Scalar.select (IntOp.cmpi .slt b 0#32) (IntOp.addi b 64#32) b

/-- The table row a lookup index reads: read signed, clamped into [0, 63]. -/
def row (b : BitVec 32) : Fin 64 := ⟨min (wrap b).toInt.toNat 63, by omega⟩

/-- The reference's scaled coordinate: origin 0 subtracted, divided by the extent 1, times 64. -/
def scaled (p : EReal) : EReal := Ideal.div (p - zero) one * c64

/-- The reference's value at one output element, `e r c` the element's entry of the table's row `r`, column `c`. -/
def refAt (px py : EReal) (e : Fin 64 → Fin 64 → EReal) : EReal :=
  (e (row (clip (cell (scaled px)))) (row (clip (cell (scaled py)))) * (one - fracI (scaled px))
      + e (row (clip (IntOp.addi (cell (scaled px)) 1#32))) (row (clip (cell (scaled py)))) * fracI (scaled px))
    * (one - fracI (scaled py))
  + (e (row (clip (cell (scaled px)))) (row (clip (IntOp.addi (cell (scaled py)) 1#32))) * (one - fracI (scaled px))
      + e (row (clip (IntOp.addi (cell (scaled px)) 1#32))) (row (clip (IntOp.addi (cell (scaled py)) 1#32))) * fracI (scaled px))
    * fracI (scaled py)

/-! ## The two results as whole arrays -/

open Idealize.ShloMosaic.ValueIdx

/-- The shapes of the positions, of the table and of the result. -/
abbrev SP : Shape := ⟨4, ![8, 256, 256, 2]⟩
abbrev SE : Shape := ⟨3, ![64, 64, 128]⟩
abbrev SO : Shape := ⟨4, ![8, 256, 256, 128]⟩

/-- Row `k` of the table flattened to 4096 rows is its row `k / 64`, column `k % 64`. -/
def unflat (k : Fin 4096) : Fin 64 × Fin 64 := (⟨k.val / 64, by omega⟩, ⟨k.val % 64, by omega⟩)

/-- The kernel's result array: element `(b, h, w, f)` is `kernelAt` of the point `positions[b, h, w, :]` against column `f` of
    the flattened table. -/
def kernelResult (P : SP.Idx → EReal) (E : SE.Idx → EReal) : SO.Idx → EReal := fun i =>
  kernelAt (P (ix4 (i 0) (i 1) (i 2) (0 : Fin 2))) (P (ix4 (i 0) (i 1) (i 2) (1 : Fin 2)))
    (fun k => E (ix3 (unflat k).1 (unflat k).2 (i 3)))

/-- The reference's result array: element `(b, h, w, f)` is `refAt` of the same point against feature `f` of the table. -/
def refResult (P : SP.Idx → EReal) (E : SE.Idx → EReal) : SO.Idx → EReal := fun i =>
  refAt (P (ix4 (i 0) (i 1) (i 2) (0 : Fin 2))) (P (ix4 (i 0) (i 1) (i 2) (1 : Fin 2)))
    (fun a b => E (ix3 a b (i 3)))

end Cert.Bilinear

end
-- ==== Proof.Interp.lean ====
import proofs.«125254_j16896401342851_1_alg».proof.Proof.Bilinear
import Idealize.ShloMosaic.PureOps.Ideal
import Idealize.ShloMosaic.Lib.ValueIdx

noncomputable section

namespace Cert.Bilinear

open Idealize.ShloMosaic

/-! ## The three literals -/

theorem c64_eq : c64 = ((64 : ℝ) : EReal) := by
  simp [Ideal.ofBits, Ideal.ieee, -EReal.coe_mul]; norm_num

theorem one_eq : one = ((1 : ℝ) : EReal) := by
  simp [Ideal.ofBits, Ideal.ieee, -EReal.coe_mul]; norm_num

theorem zero_eq : zero = ((0 : ℝ) : EReal) := by
  simp [Ideal.ofBits, Ideal.ieee, -EReal.coe_mul]

/-! ## The scaled coordinate, in both spellings, is the real 64 · p -/

theorem scaled_coe (p : ℝ) : scaled (p : EReal) = ((p * 64 : ℝ) : EReal) := by
  rw [scaled, zero_eq, one_eq, c64_eq, Ideal.div_coe one_ne_zero, ← EReal.coe_sub, ← EReal.coe_mul, ← EReal.coe_mul]
  congr 1; ring

theorem mul_c64 (p : ℝ) : (p : EReal) * c64 = ((p * 64 : ℝ) : EReal) := by
  rw [c64_eq, ← EReal.coe_mul]

/-! ## The cell of a real that fits 32 bits is its floor -/

theorem cell_coe (x : ℝ) (h : (-2147483648 : ℝ) ≤ x ∧ x < 2147483648) :
    cell (x : EReal) = BitVec.ofInt 32 ⌊x⌋ := by
  have h1 : (-2147483648 : ℤ) ≤ ⌊x⌋ := Int.le_floor.mpr (by push_cast; exact h.1)
  have h2 : ⌊x⌋ < (2147483648 : ℤ) := Int.floor_lt.mpr (by push_cast; exact h.2)
  rw [cell, Ideal.liftRound_coe, Ideal.fptosi, Ideal.toIntClamped_coe]
  simp only [Int.floor_intCast, Int.ceil_intCast, ite_self]
  congr 1
  norm_num
  omega

theorem cell_toInt (x : ℝ) (h : (-2147483648 : ℝ) ≤ x ∧ x < 2147483648) :
    (cell (x : EReal)).toInt = ⌊x⌋ := by
  have h1 : (-2147483648 : ℤ) ≤ ⌊x⌋ := Int.le_floor.mpr (by push_cast; exact h.1)
  have h2 : ⌊x⌋ < (2147483648 : ℤ) := Int.floor_lt.mpr (by push_cast; exact h.2)
  rw [cell_coe x h, BitVec.toInt_ofInt]
  apply Int.bmod_eq_of_le <;> norm_num <;> omega

theorem frac_coe (x : ℝ) : frac (x : EReal) = ((x - ⌊x⌋ : ℝ) : EReal) := by
  rw [frac, Ideal.liftRound_coe, ← EReal.coe_sub]

theorem fracI_coe (x : ℝ) (h : (-2147483648 : ℝ) ≤ x ∧ x < 2147483648) :
    fracI (x : EReal) = ((x - ⌊x⌋ : ℝ) : EReal) := by
  rw [fracI, cell_toInt x h, ← EReal.coe_sub]

/-! ## The clamp lands in [0, 63], whatever it is given -/

theorem clip_lt (b : BitVec 32) : (clip b).toNat < 64 := by
  unfold clip IntOp.minsi IntOp.maxsi
  have e0 : (0#32).toInt = 0 := by decide
  have e63 : (63#32).toInt = 63 := by decide
  have hb := BitVec.toInt_eq_toNat_cond b
  by_cases h0 : b.slt 0#32
  · rw [if_pos h0]; decide
  · rw [if_neg h0]
    by_cases h1 : (63#32).slt b
    · rw [if_pos h1]; decide
    · rw [if_neg h1]
      rw [BitVec.slt_iff_toInt_lt] at h0 h1
      omega

/-- An index already in [0, 63] is not counted from the end. -/
theorem wrap_of_lt (r : BitVec 32) (h : r.toNat < 64) : wrap r = r := by
  have e0 : (0#32).toInt = 0 := by decide
  have hr := BitVec.toInt_eq_toNat_cond r
  have hs : r.slt 0#32 = false := by
    rw [Bool.eq_false_iff]; intro hs; rw [BitVec.slt_iff_toInt_lt] at hs; omega
  simp [wrap, Scalar.select, IntOp.cmpi, hs]

/-- The table row such an index reads is the index itself. -/
theorem row_of_lt (r : BitVec 32) (h : r.toNat < 64) : row r = ⟨r.toNat, h⟩ := by
  have hr := BitVec.toInt_eq_toNat_cond r
  apply Fin.ext
  show min (wrap r).toInt.toNat 63 = r.toNat
  rw [wrap_of_lt r h]; omega

/-! ## The flat position of a corner -/

/-- Row r, column c of the table sits at row 64 · r + c of the flattened table. -/
def pos (r c : Fin 64) : Fin 4096 := ⟨64 * r.val + c.val, by omega⟩

theorem unflat_pos (r c : Fin 64) : unflat (pos r c) = (r, c) := by
  apply Prod.ext <;> apply Fin.ext <;> simp only [unflat, pos] <;> omega

/-- For corner numbers below 64 the 32-bit flat index does not overflow: position k is the corner's exactly when k is
    64 · r + c. -/
theorem cmpi_flat (r c : BitVec 32) (hr : r.toNat < 64) (hc : c.toNat < 64) (k : Fin 4096) :
    IntOp.cmpi .eq (BitVec.ofNat 32 k.val) (flat r c) = 1 ↔ k.val = 64 * r.toNat + c.toNat := by
  have hk := k.isLt
  have key : BitVec.ofNat 32 k.val = flat r c ↔ k.val = 64 * r.toNat + c.toNat := by
    rw [BitVec.toNat_eq]
    simp only [flat, IntOp.addi, IntOp.muli, BitVec.toNat_ofNat, BitVec.toNat_add, BitVec.toNat_mul]
    norm_num
    omega
  rw [← key]
  simp only [IntOp.cmpi]
  by_cases hh : BitVec.ofNat 32 k.val = flat r c
  · have hb : (BitVec.ofNat 32 k.val == flat r c) = true := by simpa using hh
    rw [hb]; exact iff_of_true (by decide) hh
  · have hb : (BitVec.ofNat 32 k.val == flat r c) = false := by simpa using hh
    rw [hb]; exact iff_of_false (by decide) hh

/-- One corner's term of the row of weights, for a real weight: the weight at the corner's flat position, zero elsewhere. -/
theorem select_corner (b1 b2 : BitVec 32) (k : Fin 4096) (w : ℝ) :
    Scalar.select (IntOp.cmpi .eq (BitVec.ofNat 32 k.val) (flat (clip b1) (clip b2))) (w : EReal) zero
      = ((if k = pos (row (clip b1)) (row (clip b2)) then w else 0 : ℝ) : EReal) := by
  rw [row_of_lt _ (clip_lt b1), row_of_lt _ (clip_lt b2)]
  unfold Scalar.select
  by_cases h : k.val = 64 * (clip b1).toNat + (clip b2).toNat
  · rw [if_pos ((cmpi_flat _ _ (clip_lt b1) (clip_lt b2) k).mpr h), if_pos (Fin.ext h)]
  · rw [if_neg (mt (cmpi_flat _ _ (clip_lt b1) (clip_lt b2) k).mp h),
      if_neg (fun hk => h (congrArg Fin.val hk)), zero_eq]

/-! ## The contraction picks the four corners -/

/-- A finite sum of reals, read in the extended reals, is the sum of the readings. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A weight placed at one position, contracted against a column, is the weight times the column's entry there. -/
theorem sum_at (p : Fin 4096) (w : ℝ) (f : Fin 4096 → ℝ) : ∑ k : Fin 4096, (if k = p then w else 0) * f k = w * f p := by
  simp [ite_mul]

/-- The row of weights of a real point, as reals: each corner's weight at the corner's flat position. -/
theorem hot_coe (x y : ℝ) (k : Fin 4096) :
    hot (x : EReal) (y : EReal) (BitVec.ofNat 32 k.val)
      = (((((if k = pos (row (clip (cell x))) (row (clip (cell y))) then (1 - (x - ⌊x⌋)) * (1 - (y - ⌊y⌋)) else 0)
          + (if k = pos (row (clip (cell x))) (row (clip (IntOp.addi (cell y) 1#32))) then (1 - (x - ⌊x⌋)) * (y - ⌊y⌋) else 0))
          + (if k = pos (row (clip (IntOp.addi (cell x) 1#32))) (row (clip (cell y))) then (x - ⌊x⌋) * (1 - (y - ⌊y⌋)) else 0))
          + (if k = pos (row (clip (IntOp.addi (cell x) 1#32))) (row (clip (IntOp.addi (cell y) 1#32))) then (x - ⌊x⌋) * (y - ⌊y⌋) else 0) : ℝ) : EReal) := by
  rw [hot, frac_coe, frac_coe, one_eq]
  simp only [← EReal.coe_sub, ← EReal.coe_mul]
  rw [select_corner, select_corner, select_corner, select_corner]
  simp only [← EReal.coe_add]

/-! ## The two results are one real number -/

/-- For a point whose two coordinates are reals in [-2^25, 2^25) and a table of reals, the row of weights contracted
    against the flattened table is the reference's combination of the four corners. -/
theorem kernelAt_eq_refAt (px py : ℝ) (hx : (-33554432 : ℝ) ≤ px ∧ px < 33554432) (hy : (-33554432 : ℝ) ≤ py ∧ py < 33554432)
    (e : Fin 64 → Fin 64 → ℝ) :
    kernelAt (px : EReal) (py : EReal) (fun k => ((e (unflat k).1 (unflat k).2 : ℝ) : EReal))
      = refAt (px : EReal) (py : EReal) (fun a b => ((e a b : ℝ) : EReal)) := by
  have hX : (-2147483648 : ℝ) ≤ px * 64 ∧ px * 64 < 2147483648 := ⟨by linarith [hx.1], by linarith [hx.2]⟩
  have hY : (-2147483648 : ℝ) ≤ py * 64 ∧ py * 64 < 2147483648 := ⟨by linarith [hy.1], by linarith [hy.2]⟩
  rw [kernelAt, refAt, scaled_coe, scaled_coe, mul_c64, mul_c64, fracI_coe _ hX, fracI_coe _ hY, one_eq]
  generalize px * 64 = x
  generalize py * 64 = y
  simp only [hot_coe]
  simp only [← EReal.coe_mul, ← EReal.coe_sub, ← EReal.coe_add]
  rw [← coe_sum]
  congr 1
  simp only [add_mul, Finset.sum_add_distrib, sum_at, unflat_pos]
  ring

end Cert.Bilinear

end
-- ==== Proof.Bridge.lean ====
/-
  From one output element to the whole arrays: where every position is a real in [-2^25, 2^25) and every table
  entry a real, the kernel's result array and the reference's are the same array, element by element
  (`Cert.Bilinear.kernelAt_eq_refAt` at the element's point and feature).
-/
import proofs.«125254_j16896401342851_1_alg».proof.Proof.Bilinear
import proofs.«125254_j16896401342851_1_alg».proof.Proof.Interp

noncomputable section

namespace Cert.Bilinear

open Idealize.ShloMosaic Idealize.ShloMosaic.ValueIdx

theorem kernelResult_eq_refResult (P : SP.Idx → EReal) (E : SE.Idx → EReal)
    (hP : ∀ i, ∃ r : ℝ, P i = (r : EReal) ∧ (-33554432 : ℝ) ≤ r ∧ r < 33554432)
    (hE : ∀ j, ∃ r : ℝ, E j = (r : EReal)) :
    kernelResult P E = refResult P E := by
  choose p hp using hP
  choose e he using hE
  funext i
  have h0 := hp (ix4 (i 0) (i 1) (i 2) (0 : Fin 2))
  have h1 := hp (ix4 (i 0) (i 1) (i 2) (1 : Fin 2))
  have hk : (fun k : Fin 4096 => E (ix3 (unflat k).1 (unflat k).2 (i 3)))
      = fun k => ((e (ix3 (unflat k).1 (unflat k).2 (i 3)) : ℝ) : EReal) := funext fun k => he _
  have hr : (fun a b : Fin 64 => E (ix3 a b (i 3))) = fun a b => ((e (ix3 a b (i 3)) : ℝ) : EReal) :=
    funext fun a => funext fun b => he _
  unfold kernelResult refResult
  rw [hk, hr, h0.1, h1.1]
  exact kernelAt_eq_refAt _ _ h0.2 h1.2 (fun a b => e (ix3 a b (i 3)))

end Cert.Bilinear

end
-- ==== Proof.KernelValue.lean ====
/-
  The kernel's value: what the idealized kernel program returns, as the specification's array.

  The program flattens the positions to 524288 rows of two coordinates and the table to 4096 rows of 128 features, runs
  one region over 2048 points, and views the region's [524288, 128] output as [8, 256, 256, 128]. Point `t` takes rows
  `256 t … 256 t + 255` of the positions and the whole table; from each row it computes the two scaled coordinates, their
  cells, the clamped corners, the fractional parts and the four flat corner indices, lays the four corner weights out along
  a row of 4096 columns — each weight where the column number equals its corner's flat index, the four added — and
  multiplies the [256, 4096] weights by the [4096, 128] table into a zero accumulator. So element `(p, q)` of the block it
  writes back is `Cert.Bilinear.kernelAt` of row `p`'s point against column `q` of the table (`out0_2_apply`); the blocks
  tile the output, block `t` at rows `256 t …`, so the output array is that function of the row and the column (`final`);
  and row `(b · 256 + h) · 256 + w` is the point `positions[b, h, w, :]`, table row `k` the table's `(k / 64, k % 64)`
  (`result_eq`).
-/
import proofs.«125254_j16896401342851_1_alg».proof.Proof.Gen.KernelIdeal.Frame
import proofs.«125254_j16896401342851_1_alg».proof.Proof.Bilinear
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KValue

open Idealize.ShloMosaic Idealize.ShloMosaic.TcCoe Idealize.ShloMosaic.ValueIdx Idealize.SL.Sem
open Cert.KernelIdeal Cert.KernelIdeal.Gen

/-! ## The product's operand indices

The weights are [256, 4096], the table [4096, 128], the product [256, 128], contracted over the weights' columns and the
table's rows: at output `(p, q)` and contraction index `k` the operands are read at `(p, k)` and `(k, q)`. -/

theorem lhs_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide),
    dif_pos (show (0 : Fin S256x4096.rank) ∈ dot_S256x4096_S4096x128_S256x128_1_0_0_1_n_n.lhsNonContracting by decide)]
  rfl
theorem lhs_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
theorem rhs_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
theorem rhs_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide),
    dif_pos (show (1 : Fin S4096x128.rank) ∈ dot_S256x4096_S4096x128_S256x128_1_0_0_1_n_n.rhsNonContracting by decide)]
  rfl

/-! ## Layout steps at an index -/

/-- A column vector made of a row of 256 values, spread over 4096 columns, reads its row's value everywhere. -/
theorem spread_apply {α : Type} (v : S256.Idx → α) (h1 : S256.ShapeCasts S256x1) (h2 : S256x1.Broadcasts S256x4096)
    (p : Fin 256) (k : Fin 4096) : broadcastTo S256x4096 (shapeCast S256x1 v h1) h2 (ix2 p k) = v (ix1 p) := by
  refine (broadcastTo_apply _ h2 (ix2 p k) (ix2 p (0 : Fin 1)) fun a => ?_).trans ?_
  · match a with
    | ⟨0, _⟩ => rfl
    | ⟨1, _⟩ => rfl
  · refine shapeCast_apply v h1 (ix2 p (0 : Fin 1)) (ix1 p) ?_
    rw [Shape.rowMajor_val_one, Shape.rowMajor_val_two]
    show p.val = p.val * 1 + 0
    omega

/-- Column `c` of the positions block, as a row of 256 values. -/
theorem column_apply {α : Type} (x : S256x2.Idx → α) (c : Fin 2) (hs : S256x2.Slices ![0, c.val] S256x1) (hc : S256x1.ShapeCasts S256)
    (p : Fin 256) : shapeCast S256 (extractStridedSlice S256x1 ![0, c.val] x hs) hc (ix1 p) = x (ix2 p c) := by
  refine (shapeCast_apply _ hc (ix1 p) (ix2 p (0 : Fin 1)) ?_).trans ?_
  · rw [Shape.rowMajor_val_one, Shape.rowMajor_val_two]
    show p.val * 1 + 0 = p.val
    omega
  · refine extractStridedSlice_apply _ x hs (ix2 p (0 : Fin 1)) (ix2 p c) fun a => ?_
    match a with
    | ⟨0, _⟩ => show p.val = 0 + p.val; omega
    | ⟨1, _⟩ => show c.val = c.val + 0; omega

/-- The column counter reads the column. -/
theorem counter_apply (p : Fin 256) (k : Fin 4096) :
    iota .tc S256x4096 32 [1] iota_S256x4096_d1_w32 (ix2 p k) = BitVec.ofNat 32 k.val :=
  iota_single_apply .tc S256x4096 32 1 iota_S256x4096_d1_w32 (ix2 p k)

/-! ## The body's values at a row

Row `p` of the block: the two scaled coordinates, their cells and clamped corners, the fractional parts and the flat corner
indices, each the scalar the specification names. -/

section Row
variable (x0 : Vec Ideal S256x2 .f32) (p : Fin 256)

open Cert.Bilinear in
theorem pay3_apply : k0_pay3 x0 (ix1 p) = x0 (ix2 p 0) * c64 := by
  unfold k0_pay3 k0_pay2
  show shapeCast S256 (extractStridedSlice S256x1 ![0, (0 : Fin 2).val] (shapeCast S256x2 x0 _) _) _ (ix1 p) * _ = _
  rw [column_apply, shapeCast_self]
  rfl
open Cert.Bilinear in
theorem pay4_apply : k0_pay4 x0 (ix1 p) = x0 (ix2 p 1) * c64 := by
  unfold k0_pay4 k0_pay2
  show shapeCast S256 (extractStridedSlice S256x1 ![0, (1 : Fin 2).val] (shapeCast S256x2 x0 _) _) _ (ix1 p) * _ = _
  rw [column_apply, shapeCast_self]
  rfl

open Cert.Bilinear

/-- The upper corner's row and column, clamped. -/
theorem pay9_apply : k0_pay9 x0 (ix1 p) = clip (IntOp.addi (cell (x0 (ix2 p 0) * c64)) 1#32) := by
  rw [← pay3_apply]; rfl
theorem pay10_apply : k0_pay10 x0 (ix1 p) = clip (IntOp.addi (cell (x0 (ix2 p 1) * c64)) 1#32) := by
  rw [← pay4_apply]; rfl
/-- The lower corner's column, clamped. -/
theorem pay12_apply : k0_pay12 x0 (ix1 p) = clip (cell (x0 (ix2 p 1) * c64)) := by
  rw [← pay4_apply]; rfl
/-- The fractional parts, against the floor. -/
theorem pay13_apply : k0_pay13 x0 (ix1 p) = frac (x0 (ix2 p 0) * c64) := by
  rw [← pay3_apply]; rfl
theorem pay14_apply : k0_pay14 x0 (ix1 p) = frac (x0 (ix2 p 1) * c64) := by
  rw [← pay4_apply]; rfl
/-- The flat indices of the two corners in the lower row. -/
theorem pay15_apply : k0_pay15 x0 (ix1 p) = flat (clip (cell (x0 (ix2 p 0) * c64))) (clip (cell (x0 (ix2 p 1) * c64))) := by
  rw [← pay3_apply, ← pay4_apply]; rfl
theorem pay16_apply : k0_pay16 x0 (ix1 p)
    = flat (clip (cell (x0 (ix2 p 0) * c64))) (clip (IntOp.addi (cell (x0 (ix2 p 1) * c64)) 1#32)) := by
  rw [← pay3_apply, ← pay4_apply]; rfl

end Row

/-! ## The weight at a row and a column -/

theorem cmpi_apply {s : Shape} {w : Nat} (pr : CmpIPredicate) (a b : IVec s w) (i : s.Idx) :
    cmpi pr a b i = IntOp.cmpi pr (a i) (b i) := rfl
theorem addi_apply {s : Shape} {w : Nat} (a b : IVec s w) (i : s.Idx) : addi a b i = IntOp.addi (a i) (b i) := rfl
theorem muli_apply {s : Shape} {w : Nat} (a b : IVec s w) (i : s.Idx) : muli a b i = IntOp.muli (a i) (b i) := rfl

/-- The [256, 4096] weights the body multiplies the table by: at row `p`, column `k`, the four corner weights of row `p`'s
    point, each where `k` is its corner's flat index. -/
theorem weight_apply (x0 : Vec Ideal S256x2 .f32) (p : Fin 256) (k : Fin 4096) :
    addf (k0_pay17 (k0_pay9 x0) (k0_pay12 x0) (k0_pay13 x0) (k0_pay14 x0) (k0_pay15 x0) (k0_pay16 x0) 64#32)
        (select (k0_pay18 (k0_pay9 x0) (k0_pay10 x0)) (k0_pay19 (k0_pay13 x0) (k0_pay14 x0))
          (broadcast S256x4096 (Scalar.ofBits (F := Ideal) .f32 0x00000000#32))) (ix2 p k)
      = Cert.Bilinear.hot (x0 (ix2 p 0) * Cert.Bilinear.c64) (x0 (ix2 p 1) * Cert.Bilinear.c64) (BitVec.ofNat 32 k.val) := by
  unfold k0_pay17 k0_pay18 k0_pay19
  simp only [addf_apply, select_apply, cmpi_apply, addi_apply, muli_apply, broadcast_apply, shapeCast_self, spread_apply,
    counter_apply, mulf_apply, subf_apply, pay9_apply, pay10_apply, pay12_apply, pay13_apply, pay14_apply, pay15_apply,
    pay16_apply]
  rw [counter_apply p k]
  rfl

/-! ## The body's result at an element -/

theorem hz : (![0, 0] : Fin 2 → Nat) = fun _ => 0 := funext fun a => by fin_cases a <;> rfl

/-- Element `(p, q)` of what the body leaves in the output block: row `p`'s weights contracted against column `q` of the table
    block — the product's sum over the 4096 table rows, each term the weight at `(p, k)` times the table's `(k, q)`. -/
theorem out0_2_apply (x0 : Vec Ideal S256x2 .f32) (x1 : Vec Ideal S4096x128 .bf16) (p : Fin 256) (q : Fin 128) :
    out0_2 x0 x1 (ix2 p q) = Cert.Bilinear.kernelAt (x0 (ix2 p 0)) (x0 (ix2 p 1)) (fun k => x1 (ix2 k q)) := by
  unfold out0_2
  rw [View.canon_unit_zero hz]
  simp only [View.ld_unit_zero (S := S256x2) hz, View.ld_unit_zero (S := S4096x128) hz]
  unfold k0_pay1
  refine (Ideal.matmul_constant_zero_apply dot_S256x4096_S4096x128_S256x128_1_0_0_1_n_n none _ _ (ix2 p q)).trans ?_
  rw [← Equiv.sum_comp (contrEquiv1 dot_S256x4096_S4096x128_S256x128_1_0_0_1_n_n 4096 rfl rfl).symm]
  unfold Cert.Bilinear.kernelAt
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 p q) ((contrEquiv1 dot_S256x4096_S4096x128_S256x128_1_0_0_1_n_n 4096 rfl rfl).symm k) = ix2 p k :=
    funext fun a => Fin.ext (by
      match a with
      | ⟨0, _⟩ => exact lhs_0 _ _
      | ⟨1, _⟩ => exact (lhs_1 _ _).trans hk)
  have er : dot_S256x4096_S4096x128_S256x128_1_0_0_1_n_n.rhsIdx (ix2 p q) ((contrEquiv1 dot_S256x4096_S4096x128_S256x128_1_0_0_1_n_n 4096 rfl rfl).symm k) = ix2 k q :=
    funext fun a => Fin.ext (by
      match a with
      | ⟨0, _⟩ => exact (rhs_0 _ _).trans hk
      | ⟨1, _⟩ => exact rhs_1 _ _)
  rw [el, er, shapeCast_self]
  exact congrArg (· * x1 (ix2 k q)) (weight_apply x0 p k)

/-! ## The arrays as the region finds them, and the array the program returns -/

section Arrays
variable (m : (ℓ : Loc nD τ sig) → Buf (Elt Ideal) ℓ)

/-- The positions as the region finds them: the argument flattened to 524288 rows of two. -/
theorem V_v0 (c : Dev nD) : (V m c main_v0 : S524288x2.Idx → EReal)
    = shapeCast S524288x2 (m ((c : Thread nD τ).loc main_arg0)) shapeCasts_S8x256x256x2_S524288x2 := by
  show StableHlo.after hostOps0 (fun b => m (c, b)) (Proc.devRef .tc main_v0) = _
  after_results
  rfl

/-- The table as the region finds it: the argument flattened to 4096 rows (the change of format keeps every value). -/
theorem V_v2 (c : Dev nD) : (V m c main_v2 : S4096x128.Idx → EReal)
    = shapeCast S4096x128 (m ((c : Thread nD τ).loc main_arg1)) shapeCasts_S64x64x128_S4096x128 := by
  show StableHlo.after hostOps0 (fun b => m (c, b)) (Proc.devRef .tc main_v2) = _
  after_results
  rfl

/-- What the program returns: the region's output array, whatever it holds after the last point, viewed as
    [8, 256, 256, 128]. -/
theorem tail_v4 (c : Dev nD) : (Pipeline.afterTail₀ cfgs (dats m) 0 (V0 m) [hostOps1] c main_v4 : S8x256x256x128.Idx → EReal)
    = shapeCast S8x256x256x128 ((dats m 0 c).arrAt 2 cfg0.N) shapeCasts_S524288x128_S8x256x256x128 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = (dats m 0 c).arrAt 2 cfg0.N := Pipeline.withArrays_arr spec0 launch0.win.arr_inj c _ _ 2
  rw [e]
  rfl

/-- Row `(b · 256 + h) · 256 + w` of the flattened positions is the point `(b, h, w)`. -/
theorem V_v0_apply (c : Dev nD) (b : Fin 8) (h w : Fin 256) (d : Fin 2) (r : Fin 524288)
    (hr : r.val = (b.val * 256 + h.val) * 256 + w.val) :
    (V m c main_v0 : S524288x2.Idx → EReal) (ix2 r d)
      = (m ((c : Thread nD τ).loc main_arg0) : S8x256x256x2.Idx → EReal) (ix4 b h w d) := by
  rw [V_v0]
  refine shapeCast_apply _ _ (ix2 r d) (ix4 b h w d) ?_
  rw [Shape.rowMajor_val_four, Shape.rowMajor_val_two]
  show ((b.val * 256 + h.val) * 256 + w.val) * 2 + d.val = r.val * 2 + d.val
  omega

/-- Row `k` of the flattened table is the table's row `k / 64`, column `k % 64`. -/
theorem V_v2_apply (c : Dev nD) (k : Fin 4096) (f : Fin 128) :
    (V m c main_v2 : S4096x128.Idx → EReal) (ix2 k f)
      = (m ((c : Thread nD τ).loc main_arg1) : S64x64x128.Idx → EReal)
          (ix3 (Cert.Bilinear.unflat k).1 (Cert.Bilinear.unflat k).2 f) := by
  rw [V_v2]
  refine shapeCast_apply _ _ (ix2 k f) (ix3 (Cert.Bilinear.unflat k).1 (Cert.Bilinear.unflat k).2 f) ?_
  rw [Shape.rowMajor_val_three, Shape.rowMajor_val_two]
  show (k.val / 64 * 64 + k.val % 64) * 128 + f.val = k.val * 128 + f.val
  omega

/-! ## From blocks to the array -/

/-- The index maps over the grid: point `t` reads rows `256 t …` of the positions and the whole table, and writes rows
    `256 t …` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The region's output array after the run, element `(r, f)`: the interpolation of the point in row `r` of the flattened
    positions against column `f` of the flattened table. -/
abbrev rows (c : Dev nD) : S524288x128.Idx → EReal := fun i =>
  Cert.Bilinear.kernelAt ((V m c main_v0 : S524288x2.Idx → EReal) (ix2 (i 0) 0))
    ((V m c main_v0 : S524288x2.Idx → EReal) (ix2 (i 0) 1))
    (fun k => (V m c main_v2 : S4096x128.Idx → EReal) (ix2 k (i 1)))

/-- What point `t` writes back is block `t` of `rows`: row `p` of its positions block is row `256 t + p` of the positions,
    its table block the whole table, and the output block's row `p` is row `256 t + p` of the result. -/
theorem flushed_eq (c : Dev nD) (t : Fin cfg0.N) :
    (dats m 0 c).flushed 2 t = ((cfg0.win 2).blk t).view.read (Elt Ideal) (rows m c) := by
  show (cfg0.win 2).cut (grid0.coords t) ((dats m 0 c).after 2 t) = _
  rw [after0_2]
  obtain ⟨e0, e1, e2, e3, e4, e5⟩ := idx_facts t
  funext j
  obtain ⟨p, q, rfl⟩ : ∃ (p : Fin 256) (q : Fin 128), j = ix2 p q := ⟨j 0, j 1, eq_ix2 j⟩
  show out0_2 (iblk m c 0 t) (iblk m c 1 t) (ix2 p q)
    = Cert.Bilinear.kernelAt
        ((V m c main_v0 : S524288x2.Idx → EReal) (ix2 ((((cfg0.win 2).blk t).view.emb (ix2 p q)) 0) 0))
        ((V m c main_v0 : S524288x2.Idx → EReal) (ix2 ((((cfg0.win 2).blk t).view.emb (ix2 p q)) 0) 1))
        (fun k => (V m c main_v2 : S4096x128.Idx → EReal) (ix2 k ((((cfg0.win 2).blk t).view.emb (ix2 p q)) 1)))
  refine (out0_2_apply (iblk m c 0 t) (iblk m c 1 t) p q).trans ?_
  have h0 : ∀ d : Fin 2, (iblk m c 0 t : Vec Ideal S256x2 .f32) (ix2 p d)
      = (V m c main_v0 : S524288x2.Idx → EReal) (ix2 ((((cfg0.win 2).blk t).view.emb (ix2 p q)) 0) d) := fun d => by
    show (V m c main_v0 : S524288x2.Idx → EReal) (((cfg0.win 0).blk t).view.emb (ix2 p d)) = _
    congr 1
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 2 + 1 * d.val = d.val; omega
  have h1 : ∀ k : Fin 4096, (iblk m c 1 t : Vec Ideal S4096x128 .bf16) (ix2 k q)
      = (V m c main_v2 : S4096x128.Idx → EReal) (ix2 k ((((cfg0.win 2).blk t).view.emb (ix2 p q)) 1)) := fun k => by
    show (V m c main_v2 : S4096x128.Idx → EReal) (((cfg0.win 1).blk t).view.emb (ix2 k q)) = _
    congr 1
    funext a; apply Fin.ext
    match a with
    | ⟨0, _⟩ => show win0_1.index t (0 : Fin 2) * 4096 + 1 * k.val = k.val; omega
    | ⟨1, _⟩ => show win0_1.index t (1 : Fin 2) * 128 + 1 * q.val = win0_2.index t (1 : Fin 2) * 128 + 1 * q.val; omega
  rw [h0 0, h0 1, funext h1]

/-- An index of the result array is in point `t`'s block iff each coordinate is in the block's range on its axis. -/
theorem mem_blk (t : Fin cfg0.N) (i : S524288x128.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v3).slice (win0_2.rect t)).set ↔ _
  rw [View.set_slice_whole, Rect.mem_set_unit]
  exact Iff.rfl

/-- Every row `r` of the result array lies in the block of the point `r / 256`, which writes it back. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  have hN : cfg0.N = 2048 := N_0
  let t : Fin cfg0.N := ⟨(i 0).val / 256, by rw [hN]; omega⟩
  obtain ⟨-, -, -, -, e4, e5⟩ := idx_facts t
  have e4' : win0_2.index t (0 : Fin 2) = (i 0).val / 256 := e4
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- So the region's output array ends holding `rows`. -/
theorem final (c : Dev nD) : (dats m 0 c).arrAt 2 cfg0.N = rows m c :=
  (dats m 0 c).arrAt_eq_of_cover 2 (rows m c) (fun t _ => flushed_eq m c t) cover

/-! ## The result -/

/-- `rows` viewed as [8, 256, 256, 128] is the specification's array: element `(b, h, w, f)` is row
    `(b · 256 + h) · 256 + w`, whose point is `positions[b, h, w, :]`. -/
theorem result_eq (c : Dev nD) :
    shapeCast S8x256x256x128 (rows m c) shapeCasts_S524288x128_S8x256x256x128
      = Cert.Bilinear.kernelResult (m ((c : Thread nD τ).loc main_arg0)) (m ((c : Thread nD τ).loc main_arg1)) := by
  funext i
  obtain ⟨b, h, w, f, rfl⟩ : ∃ (b : Fin 8) (h w : Fin 256) (f : Fin 128), i = ix4 b h w f :=
    ⟨i 0, i 1, i 2, i 3, eq_ix4 i⟩
  have hb := b.isLt; have hh := h.isLt; have hw := w.isLt
  let r : Fin 524288 := ⟨(b.val * 256 + h.val) * 256 + w.val, by omega⟩
  refine (shapeCast_apply (rows m c) shapeCasts_S524288x128_S8x256x256x128 (ix4 b h w f) (ix2 r f) ?_).trans ?_
  · rw [Shape.rowMajor_val_four, Shape.rowMajor_val_two]
    rfl
  · show Cert.Bilinear.kernelAt ((V m c main_v0 : S524288x2.Idx → EReal) (ix2 r 0))
        ((V m c main_v0 : S524288x2.Idx → EReal) (ix2 r 1))
        (fun k => (V m c main_v2 : S4096x128.Idx → EReal) (ix2 k f))
      = Cert.Bilinear.kernelAt
          ((m ((c : Thread nD τ).loc main_arg0) : S8x256x256x2.Idx → EReal) (ix4 b h w 0))
          ((m ((c : Thread nD τ).loc main_arg0) : S8x256x256x2.Idx → EReal) (ix4 b h w 1))
          (fun k => (m ((c : Thread nD τ).loc main_arg1) : S64x64x128.Idx → EReal)
            (ix3 (Cert.Bilinear.unflat k).1 (Cert.Bilinear.unflat k).2 f))
    rw [V_v0_apply m c b h w 0 r rfl, V_v0_apply m c b h w 1 r rfl, funext fun k => V_v2_apply m c k f]

end Arrays

/-- Every run of the idealized kernel program ends with its result array at `Cert.Bilinear.kernelResult` of the two argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = Cert.Bilinear.kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans
        ((tail_v4 m c).trans ((congrArg (shapeCast S8x256x256x128 · shapeCasts_S524288x128_S8x256x256x128) (final m c)).trans
          (result_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The value of the reference program: bilinear interpolation of the table at every point of the batch.

  For the point `(b, h, v)` the program scales each of the two coordinates (origin 0 subtracted, divided by the extent 1,
  times 64), takes the floor and converts it to a 32-bit integer, the cell number; the lower corner is the cell number
  clamped to [0, 63], the upper corner the cell number plus one, clamped. Each of the four corners is looked up in the
  table: its row and column first go through the count-from-the-end rule for a negative index, are written as two
  columns, joined into one array of index pairs, and the lookup reads the pair signed and clamped to 63. The fractional
  part of a scaled coordinate is taken against the cell number read back as a real. The four looked-up rows are combined
  first along the first axis, then along the second.

  The module reads every named value of the program at an index built from coordinates and states it in the words of
  `Cert.Bilinear`; the last step is that the whole result array is `Cert.Bilinear.refResult` of the two arguments.
-/
import proofs.«125254_j16896401342851_1_alg».proof.Proof.RefRun
import proofs.«125254_j16896401342851_1_alg».proof.Proof.RefRead
import proofs.«125254_j16896401342851_1_alg».proof.Proof.Bilinear
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RValue

open Idealize.ShloMosaic Idealize.ShloMosaic.TcCoe Idealize.ShloMosaic.ValueIdx Idealize.SL.Sem
open Cert.ReferenceIdeal Cert.ReferenceIdeal.Gen

/-! ## A lookup in the table, and a join of two index columns, read at an index

The lookup takes, for the result element `(b, h, v, f)`, the start index `idx[b, h, v, :]` of two components: each is read as a
signed integer and clamped into `[0, 63]` (the slice has extent one on the table's first two axes, so the largest start that
fits is 63), and names the table's row and column; the third table axis is not indexed and carries the result's last
coordinate `f`. -/

/-- The lookup at `(b, h, v, f)` reads the table at row `r0`, column `r1`, feature `f`, for `r0`, `r1` the two start-index
    components at `(b, h, v)` read signed and clamped to 63. -/
theorem gather_at {α : Type} {w : Nat} (x : S64x64x128.Idx → α) (idx : IVec S8x256x256x2 w)
    (b : Fin 8) (h v : Fin 256) (f : Fin 128) (r0 r1 : Fin 64)
    (h0 : r0.val = min (idx (ix4 b h v (0 : Fin 2))).toInt.toNat 63)
    (h1 : r1.val = min (idx (ix4 b h v (1 : Fin 2))).toInt.toNat 63) :
    Host.gather gather_S64x64x128_S8x256x256x2_S8x256x256x128_3_01_n_n_01_3_11128 x idx (ix4 b h v f) = x (ix3 r0 r1 f) := by
  -- on each table axis: the clamped start, plus a batching coordinate (there is none), plus an offset coordinate
  have e0 : gather_S64x64x128_S8x256x256x2_S8x256x256x128_3_01_n_n_01_3_11128.start (ix4 b h v f) idx (0 : Fin S64x64x128.rank)
      + gather_S64x64x128_S8x256x256x2_S8x256x256x128_3_01_n_n_01_3_11128.batchCoord (ix4 b h v f) (0 : Fin S64x64x128.rank)
      + gather_S64x64x128_S8x256x256x2_S8x256x256x128_3_01_n_n_01_3_11128.offCoord (ix4 b h v f) (0 : Fin S64x64x128.rank) = r0.val := by
    rw [GatherDims.batchCoord_eq_zero _ _ _ List.not_mem_nil, Nat.add_zero,
      GatherDims.offCoord_eq_zero _ _ _ (fun hm => ((GatherDims.mem_sKept _ _).mp hm).1 (by decide)), Nat.add_zero]
    unfold GatherDims.start
    rw [dif_pos (by decide)]
    have hsi : gather_S64x64x128_S8x256x256x2_S8x256x256x128_3_01_n_n_01_3_11128.siIdx (ix4 b h v f)
        ⟨List.idxOf (0 : Fin S64x64x128.rank) gather_S64x64x128_S8x256x256x2_S8x256x256x128_3_01_n_n_01_3_11128.startIndexMap, List.idxOf_lt_length_iff.2 (by decide)⟩
        = ix4 b h v (0 : Fin 2) := by
      funext c; refine Fin.ext ?_
      match c with
      | ⟨0, _⟩ => rfl
      | ⟨1, _⟩ => rfl
      | ⟨2, _⟩ => rfl
      | ⟨3, _⟩ => rfl
    rw [hsi]
    exact h0.symm
  have e1 : gather_S64x64x128_S8x256x256x2_S8x256x256x128_3_01_n_n_01_3_11128.start (ix4 b h v f) idx (1 : Fin S64x64x128.rank)
      + gather_S64x64x128_S8x256x256x2_S8x256x256x128_3_01_n_n_01_3_11128.batchCoord (ix4 b h v f) (1 : Fin S64x64x128.rank)
      + gather_S64x64x128_S8x256x256x2_S8x256x256x128_3_01_n_n_01_3_11128.offCoord (ix4 b h v f) (1 : Fin S64x64x128.rank) = r1.val := by
    rw [GatherDims.batchCoord_eq_zero _ _ _ List.not_mem_nil, Nat.add_zero,
      GatherDims.offCoord_eq_zero _ _ _ (fun hm => ((GatherDims.mem_sKept _ _).mp hm).1 (by decide)), Nat.add_zero]
    unfold GatherDims.start
    rw [dif_pos (by decide)]
    have hsi : gather_S64x64x128_S8x256x256x2_S8x256x256x128_3_01_n_n_01_3_11128.siIdx (ix4 b h v f)
        ⟨List.idxOf (1 : Fin S64x64x128.rank) gather_S64x64x128_S8x256x256x2_S8x256x256x128_3_01_n_n_01_3_11128.startIndexMap, List.idxOf_lt_length_iff.2 (by decide)⟩
        = ix4 b h v (1 : Fin 2) := by
      funext c; refine Fin.ext ?_
      match c with
      | ⟨0, _⟩ => rfl
      | ⟨1, _⟩ => rfl
      | ⟨2, _⟩ => rfl
      | ⟨3, _⟩ => rfl
    rw [hsi]
    exact h1.symm
  have e2 : gather_S64x64x128_S8x256x256x2_S8x256x256x128_3_01_n_n_01_3_11128.start (ix4 b h v f) idx (2 : Fin S64x64x128.rank)
      + gather_S64x64x128_S8x256x256x2_S8x256x256x128_3_01_n_n_01_3_11128.batchCoord (ix4 b h v f) (2 : Fin S64x64x128.rank)
      + gather_S64x64x128_S8x256x256x2_S8x256x256x128_3_01_n_n_01_3_11128.offCoord (ix4 b h v f) (2 : Fin S64x64x128.rank) = f.val := by
    rw [GatherDims.batchCoord_eq_zero _ _ _ List.not_mem_nil, Nat.add_zero]
    unfold GatherDims.start
    rw [dif_neg (by decide), Nat.zero_add]
    rfl
  unfold Host.gather
  congr 1
  funext a
  refine Fin.ext ?_
  match a with
  | ⟨0, _⟩ => exact e0
  | ⟨1, _⟩ => exact e1
  | ⟨2, _⟩ => exact e2

/-- Two columns `[8, 256, 256, 1]` joined along the last axis: at last coordinate 0 the join reads the first column. -/
theorem concat_at0 {α : Type} (x₁ x₂ : S8x256x256x1.Idx → α) (b : Fin 8) (h v : Fin 256) :
    concatenate S8x256x256x2 3 [⟨S8x256x256x1, x₁⟩, ⟨S8x256x256x1, x₂⟩] concatenates_S8x256x256x1_S8x256x256x1_S8x256x256x2_d3 (ix4 b h v (0 : Fin 2))
      = x₁ (ix4 b h v (0 : Fin 1)) :=
  concatenate_pair_apply_left (t := S8x256x256x2) 3 x₁ x₂ concatenates_S8x256x256x1_S8x256x256x1_S8x256x256x2_d3
    (ix4 b h v (0 : Fin 2)) rfl (ix4 b h v (0 : Fin 1))
    (fun c => match c with | ⟨0, _⟩ => rfl | ⟨1, _⟩ => rfl | ⟨2, _⟩ => rfl | ⟨3, _⟩ => rfl)

/-- At last coordinate 1 the join reads the second column (its coordinate there is the first column's extent, 1, less). -/
theorem concat_at1 {α : Type} (x₁ x₂ : S8x256x256x1.Idx → α) (b : Fin 8) (h v : Fin 256) :
    concatenate S8x256x256x2 3 [⟨S8x256x256x1, x₁⟩, ⟨S8x256x256x1, x₂⟩] concatenates_S8x256x256x1_S8x256x256x1_S8x256x256x2_d3 (ix4 b h v (1 : Fin 2))
      = x₂ (ix4 b h v (0 : Fin 1)) :=
  concatenate_pair_apply_right (t := S8x256x256x2) 3 x₁ x₂ concatenates_S8x256x256x1_S8x256x256x1_S8x256x256x2_d3
    (ix4 b h v (1 : Fin 2)) rfl rfl (ix4 b h v (0 : Fin 1))
    (fun c hc => match c, hc with
      | ⟨0, _⟩, _ => rfl | ⟨1, _⟩, _ => rfl | ⟨2, _⟩, _ => rfl | ⟨3, _⟩, hc => absurd rfl hc)
    rfl

/-! ## The index maps of the layout operations, at an index built from coordinates -/

/-- The first component's slice, after the trailing unit axis is dropped, reads the positions at `(b, h, v, 0)`: the flat
    position `(b · 256 + h) · 256 + v` splits back into `b`, `h`, `v`. -/
theorem idx_x (b : Fin 8) (h v : Fin 256) : RefRead.idx_main_v0 (RefRead.idx_main_v1 (ix3 b h v)) = ix4 b h v (0 : Fin 2) := by
  funext a; refine Fin.ext ?_
  have hh := h.isLt; have hv := v.isLt
  match a with
  | ⟨0, _⟩ => show ((b.val * 256 + h.val) * 256 + v.val) / 65536 = b.val; omega
  | ⟨1, _⟩ => show ((b.val * 256 + h.val) * 256 + v.val) / 256 % 256 = h.val; omega
  | ⟨2, _⟩ => show ((b.val * 256 + h.val) * 256 + v.val) / 1 % 256 = v.val; omega
  | ⟨3, _⟩ => rfl

/-- The second component's slice reads the positions at `(b, h, v, 1)`. -/
theorem idx_y (b : Fin 8) (h v : Fin 256) : RefRead.idx_main_v8 (RefRead.idx_main_v9 (ix3 b h v)) = ix4 b h v (1 : Fin 2) := by
  funext a; refine Fin.ext ?_
  have hh := h.isLt; have hv := v.isLt
  match a with
  | ⟨0, _⟩ => show ((b.val * 256 + h.val) * 256 + v.val) / 65536 = b.val; omega
  | ⟨1, _⟩ => show ((b.val * 256 + h.val) * 256 + v.val) / 256 % 256 = h.val; omega
  | ⟨2, _⟩ => show ((b.val * 256 + h.val) * 256 + v.val) / 1 % 256 = v.val; omega
  | ⟨3, _⟩ => rfl

/-- A column `[8, 256, 256, 1]` of a `[8, 256, 256]` array reads it at the first three coordinates. -/
theorem idx_col (b : Fin 8) (h v : Fin 256) (z : Fin 1) : RefRead.idx_main_v38 (ix4 b h v z) = ix3 b h v :=
  funext fun a => match a with | ⟨0, _⟩ => rfl | ⟨1, _⟩ => rfl | ⟨2, _⟩ => rfl

/-- A column spread along the 128 features reads the column at its one last coordinate. -/
theorem idx_feat (b : Fin 8) (h v : Fin 256) (f : Fin 128) : RefRead.idx_main_v92 (ix4 b h v f) = ix4 b h v (0 : Fin 1) :=
  funext fun a => match a with | ⟨0, _⟩ => rfl | ⟨1, _⟩ => rfl | ⟨2, _⟩ => rfl | ⟨3, _⟩ => rfl

/-! ## The stages of the reference at the point `(b, h, v)` of the batch

`P` is the array of positions and `E` the table. Each lemma reads one named value of the program at an index built from
coordinates and states it in the words of the specification. -/

section Stages

variable (P : (⟨S8x256x256x2, .f32⟩ : BufTy).Contents (Elt Ideal)) (E : (⟨S64x64x128, .f32⟩ : BufTy).Contents (Elt Ideal)) (b : Fin 8) (h v : Fin 256)

/-- The first scaled coordinate: the point's first component, less the origin, over the extent, times 64. -/
theorem sx_at : RefRead.val_main_v7 (F := Ideal) P (ix3 b h v) = Bilinear.scaled (P (ix4 b h v (0 : Fin 2))) := by
  rw [RefRead.val_main_v7_apply, RefRead.val_main_v5_apply, RefRead.val_main_v3_apply, RefRead.val_main_v1_apply, RefRead.val_main_v0_apply, RefRead.val_main_v2_apply, RefRead.val_main_cst_apply, RefRead.val_main_v4_apply, RefRead.val_main_cst_0_apply, RefRead.val_main_v6_apply, RefRead.val_main_cst_1_apply, idx_x b h v]
  rfl

/-- The second scaled coordinate, the same of the point's second component. -/
theorem sy_at : RefRead.val_main_v15 (F := Ideal) P (ix3 b h v) = Bilinear.scaled (P (ix4 b h v (1 : Fin 2))) := by
  rw [RefRead.val_main_v15_apply, RefRead.val_main_v13_apply, RefRead.val_main_v11_apply, RefRead.val_main_v9_apply, RefRead.val_main_v8_apply, RefRead.val_main_v10_apply, RefRead.val_main_cst_2_apply, RefRead.val_main_v12_apply, RefRead.val_main_cst_3_apply, RefRead.val_main_v14_apply, RefRead.val_main_cst_4_apply, idx_y b h v]
  rfl

/-- The first cell number: the floor of the first scaled coordinate as a 32-bit integer. -/
theorem cx_at : RefRead.val_main_v17 (F := Ideal) P (ix3 b h v) = Bilinear.cell (Bilinear.scaled (P (ix4 b h v (0 : Fin 2)))) := by
  rw [RefRead.val_main_v17_apply, RefRead.val_main_v16_apply, sx_at P b h v]
  rfl

/-- The second cell number. -/
theorem cy_at : RefRead.val_main_v19 (F := Ideal) P (ix3 b h v) = Bilinear.cell (Bilinear.scaled (P (ix4 b h v (1 : Fin 2)))) := by
  rw [RefRead.val_main_v19_apply, RefRead.val_main_v18_apply, sy_at P b h v]
  rfl

/-- The lower corner's row: the first cell number clamped to [0, 63]. -/
theorem x0_at : RefRead.val_main_v26 (F := Ideal) P (ix3 b h v) = (Bilinear.clip (Bilinear.cell (Bilinear.scaled (P (ix4 b h v (0 : Fin 2)))))) := by
  rw [RefRead.val_main_v26_apply, RefRead.val_main_call2_v4_apply, RefRead.val_main_call2_v3_apply, RefRead.val_main_c_11_apply, RefRead.val_main_call2_v2_apply, RefRead.val_main_call2_v1_apply, RefRead.val_main_call2_v0_apply, RefRead.val_main_c_10_apply, cx_at P b h v]
  rfl

/-- The lower corner's column: the second cell number clamped. -/
theorem y0_at : RefRead.val_main_v27 (F := Ideal) P (ix3 b h v) = (Bilinear.clip (Bilinear.cell (Bilinear.scaled (P (ix4 b h v (1 : Fin 2)))))) := by
  rw [RefRead.val_main_v27_apply, RefRead.val_main_call3_v4_apply, RefRead.val_main_call3_v3_apply, RefRead.val_main_c_13_apply, RefRead.val_main_call3_v2_apply, RefRead.val_main_call3_v1_apply, RefRead.val_main_call3_v0_apply, RefRead.val_main_c_12_apply, cy_at P b h v]
  rfl

/-- The upper corner's row: the first cell number plus one, clamped. -/
theorem x1_at : RefRead.val_main_v22 (F := Ideal) P (ix3 b h v) = (Bilinear.clip (IntOp.addi (Bilinear.cell (Bilinear.scaled (P (ix4 b h v (0 : Fin 2))))) 1#32)) := by
  rw [RefRead.val_main_v22_apply, RefRead.val_main_call0_v4_apply, RefRead.val_main_call0_v3_apply, RefRead.val_main_c_6_apply, RefRead.val_main_call0_v2_apply, RefRead.val_main_call0_v1_apply, RefRead.val_main_call0_v0_apply, RefRead.val_main_c_5_apply, RefRead.val_main_v21_apply, RefRead.val_main_v20_apply, RefRead.val_main_c_apply, cx_at P b h v]
  rfl

/-- The upper corner's column: the second cell number plus one, clamped. -/
theorem y1_at : RefRead.val_main_v25 (F := Ideal) P (ix3 b h v) = (Bilinear.clip (IntOp.addi (Bilinear.cell (Bilinear.scaled (P (ix4 b h v (1 : Fin 2))))) 1#32)) := by
  rw [RefRead.val_main_v25_apply, RefRead.val_main_call1_v4_apply, RefRead.val_main_call1_v3_apply, RefRead.val_main_c_9_apply, RefRead.val_main_call1_v2_apply, RefRead.val_main_call1_v1_apply, RefRead.val_main_call1_v0_apply, RefRead.val_main_c_8_apply, RefRead.val_main_v24_apply, RefRead.val_main_v23_apply, RefRead.val_main_c_7_apply, cy_at P b h v]
  rfl

/-- The lookup index after the count-from-the-end rule: lower row, for the corner (lower, lower). -/
theorem w32 : RefRead.val_main_v32 (F := Ideal) P (ix3 b h v) = Bilinear.wrap (Bilinear.clip (Bilinear.cell (Bilinear.scaled (P (ix4 b h v (0 : Fin 2)))))) := by
  rw [RefRead.val_main_v32_apply, RefRead.val_main_v29_apply, RefRead.val_main_v28_apply, RefRead.val_main_c_14_apply, RefRead.val_main_v31_apply, RefRead.val_main_v30_apply, RefRead.val_main_c_15_apply, x0_at P b h v]
  rfl

/-- The lookup index after the count-from-the-end rule: lower column, for the corner (lower, lower). -/
theorem w37 : RefRead.val_main_v37 (F := Ideal) P (ix3 b h v) = Bilinear.wrap (Bilinear.clip (Bilinear.cell (Bilinear.scaled (P (ix4 b h v (1 : Fin 2)))))) := by
  rw [RefRead.val_main_v37_apply, RefRead.val_main_v34_apply, RefRead.val_main_v33_apply, RefRead.val_main_c_16_apply, RefRead.val_main_v36_apply, RefRead.val_main_v35_apply, RefRead.val_main_c_17_apply, y0_at P b h v]
  rfl

/-- The lookup index after the count-from-the-end rule: lower row, for the corner (lower, upper). -/
theorem w46 : RefRead.val_main_v46 (F := Ideal) P (ix3 b h v) = Bilinear.wrap (Bilinear.clip (Bilinear.cell (Bilinear.scaled (P (ix4 b h v (0 : Fin 2)))))) := by
  rw [RefRead.val_main_v46_apply, RefRead.val_main_v43_apply, RefRead.val_main_v42_apply, RefRead.val_main_c_18_apply, RefRead.val_main_v45_apply, RefRead.val_main_v44_apply, RefRead.val_main_c_19_apply, x0_at P b h v]
  rfl

/-- The lookup index after the count-from-the-end rule: upper column, for the corner (lower, upper). -/
theorem w51 : RefRead.val_main_v51 (F := Ideal) P (ix3 b h v) = Bilinear.wrap (Bilinear.clip (IntOp.addi (Bilinear.cell (Bilinear.scaled (P (ix4 b h v (1 : Fin 2))))) 1#32)) := by
  rw [RefRead.val_main_v51_apply, RefRead.val_main_v48_apply, RefRead.val_main_v47_apply, RefRead.val_main_c_20_apply, RefRead.val_main_v50_apply, RefRead.val_main_v49_apply, RefRead.val_main_c_21_apply, y1_at P b h v]
  rfl

/-- The lookup index after the count-from-the-end rule: upper row, for the corner (upper, lower). -/
theorem w60 : RefRead.val_main_v60 (F := Ideal) P (ix3 b h v) = Bilinear.wrap (Bilinear.clip (IntOp.addi (Bilinear.cell (Bilinear.scaled (P (ix4 b h v (0 : Fin 2))))) 1#32)) := by
  rw [RefRead.val_main_v60_apply, RefRead.val_main_v57_apply, RefRead.val_main_v56_apply, RefRead.val_main_c_22_apply, RefRead.val_main_v59_apply, RefRead.val_main_v58_apply, RefRead.val_main_c_23_apply, x1_at P b h v]
  rfl

/-- The lookup index after the count-from-the-end rule: lower column, for the corner (upper, lower). -/
theorem w65 : RefRead.val_main_v65 (F := Ideal) P (ix3 b h v) = Bilinear.wrap (Bilinear.clip (Bilinear.cell (Bilinear.scaled (P (ix4 b h v (1 : Fin 2)))))) := by
  rw [RefRead.val_main_v65_apply, RefRead.val_main_v62_apply, RefRead.val_main_v61_apply, RefRead.val_main_c_24_apply, RefRead.val_main_v64_apply, RefRead.val_main_v63_apply, RefRead.val_main_c_25_apply, y0_at P b h v]
  rfl

/-- The lookup index after the count-from-the-end rule: upper row, for the corner (upper, upper). -/
theorem w74 : RefRead.val_main_v74 (F := Ideal) P (ix3 b h v) = Bilinear.wrap (Bilinear.clip (IntOp.addi (Bilinear.cell (Bilinear.scaled (P (ix4 b h v (0 : Fin 2))))) 1#32)) := by
  rw [RefRead.val_main_v74_apply, RefRead.val_main_v71_apply, RefRead.val_main_v70_apply, RefRead.val_main_c_26_apply, RefRead.val_main_v73_apply, RefRead.val_main_v72_apply, RefRead.val_main_c_27_apply, x1_at P b h v]
  rfl

/-- The lookup index after the count-from-the-end rule: upper column, for the corner (upper, upper). -/
theorem w79 : RefRead.val_main_v79 (F := Ideal) P (ix3 b h v) = Bilinear.wrap (Bilinear.clip (IntOp.addi (Bilinear.cell (Bilinear.scaled (P (ix4 b h v (1 : Fin 2))))) 1#32)) := by
  rw [RefRead.val_main_v79_apply, RefRead.val_main_v76_apply, RefRead.val_main_v75_apply, RefRead.val_main_c_28_apply, RefRead.val_main_v78_apply, RefRead.val_main_v77_apply, RefRead.val_main_c_29_apply, y1_at P b h v]
  rfl

/-! Each lookup index as a column `[8, 256, 256, 1]`, and the two columns of a corner joined along the last axis. -/

theorem col38 (z : Fin 1) : RefRead.val_main_v38 (F := Ideal) P (ix4 b h v z) = Bilinear.wrap (Bilinear.clip (Bilinear.cell (Bilinear.scaled (P (ix4 b h v (0 : Fin 2)))))) := by
  rw [RefRead.val_main_v38_apply, show RefRead.idx_main_v38 (ix4 b h v z) = ix3 b h v from idx_col b h v z]
  exact w32 P b h v

theorem col39 (z : Fin 1) : RefRead.val_main_v39 (F := Ideal) P (ix4 b h v z) = Bilinear.wrap (Bilinear.clip (Bilinear.cell (Bilinear.scaled (P (ix4 b h v (1 : Fin 2)))))) := by
  rw [RefRead.val_main_v39_apply, show RefRead.idx_main_v39 (ix4 b h v z) = ix3 b h v from idx_col b h v z]
  exact w37 P b h v

theorem col52 (z : Fin 1) : RefRead.val_main_v52 (F := Ideal) P (ix4 b h v z) = Bilinear.wrap (Bilinear.clip (Bilinear.cell (Bilinear.scaled (P (ix4 b h v (0 : Fin 2)))))) := by
  rw [RefRead.val_main_v52_apply, show RefRead.idx_main_v52 (ix4 b h v z) = ix3 b h v from idx_col b h v z]
  exact w46 P b h v

theorem col53 (z : Fin 1) : RefRead.val_main_v53 (F := Ideal) P (ix4 b h v z) = Bilinear.wrap (Bilinear.clip (IntOp.addi (Bilinear.cell (Bilinear.scaled (P (ix4 b h v (1 : Fin 2))))) 1#32)) := by
  rw [RefRead.val_main_v53_apply, show RefRead.idx_main_v53 (ix4 b h v z) = ix3 b h v from idx_col b h v z]
  exact w51 P b h v

theorem col66 (z : Fin 1) : RefRead.val_main_v66 (F := Ideal) P (ix4 b h v z) = Bilinear.wrap (Bilinear.clip (IntOp.addi (Bilinear.cell (Bilinear.scaled (P (ix4 b h v (0 : Fin 2))))) 1#32)) := by
  rw [RefRead.val_main_v66_apply, show RefRead.idx_main_v66 (ix4 b h v z) = ix3 b h v from idx_col b h v z]
  exact w60 P b h v

theorem col67 (z : Fin 1) : RefRead.val_main_v67 (F := Ideal) P (ix4 b h v z) = Bilinear.wrap (Bilinear.clip (Bilinear.cell (Bilinear.scaled (P (ix4 b h v (1 : Fin 2)))))) := by
  rw [RefRead.val_main_v67_apply, show RefRead.idx_main_v67 (ix4 b h v z) = ix3 b h v from idx_col b h v z]
  exact w65 P b h v

theorem col80 (z : Fin 1) : RefRead.val_main_v80 (F := Ideal) P (ix4 b h v z) = Bilinear.wrap (Bilinear.clip (IntOp.addi (Bilinear.cell (Bilinear.scaled (P (ix4 b h v (0 : Fin 2))))) 1#32)) := by
  rw [RefRead.val_main_v80_apply, show RefRead.idx_main_v80 (ix4 b h v z) = ix3 b h v from idx_col b h v z]
  exact w74 P b h v

theorem col81 (z : Fin 1) : RefRead.val_main_v81 (F := Ideal) P (ix4 b h v z) = Bilinear.wrap (Bilinear.clip (IntOp.addi (Bilinear.cell (Bilinear.scaled (P (ix4 b h v (1 : Fin 2))))) 1#32)) := by
  rw [RefRead.val_main_v81_apply, show RefRead.idx_main_v81 (ix4 b h v z) = ix3 b h v from idx_col b h v z]
  exact w79 P b h v

theorem pair_v40_0 : RefRead.val_main_v40 (F := Ideal) P (ix4 b h v (0 : Fin 2)) = Bilinear.wrap (Bilinear.clip (Bilinear.cell (Bilinear.scaled (P (ix4 b h v (0 : Fin 2)))))) := by
  unfold RefRead.val_main_v40
  exact (concat_at0 _ _ b h v).trans (col38 P b h v 0)

theorem pair_v40_1 : RefRead.val_main_v40 (F := Ideal) P (ix4 b h v (1 : Fin 2)) = Bilinear.wrap (Bilinear.clip (Bilinear.cell (Bilinear.scaled (P (ix4 b h v (1 : Fin 2)))))) := by
  unfold RefRead.val_main_v40
  exact (concat_at1 _ _ b h v).trans (col39 P b h v 0)

theorem pair_v54_0 : RefRead.val_main_v54 (F := Ideal) P (ix4 b h v (0 : Fin 2)) = Bilinear.wrap (Bilinear.clip (Bilinear.cell (Bilinear.scaled (P (ix4 b h v (0 : Fin 2)))))) := by
  unfold RefRead.val_main_v54
  exact (concat_at0 _ _ b h v).trans (col52 P b h v 0)

theorem pair_v54_1 : RefRead.val_main_v54 (F := Ideal) P (ix4 b h v (1 : Fin 2)) = Bilinear.wrap (Bilinear.clip (IntOp.addi (Bilinear.cell (Bilinear.scaled (P (ix4 b h v (1 : Fin 2))))) 1#32)) := by
  unfold RefRead.val_main_v54
  exact (concat_at1 _ _ b h v).trans (col53 P b h v 0)

theorem pair_v68_0 : RefRead.val_main_v68 (F := Ideal) P (ix4 b h v (0 : Fin 2)) = Bilinear.wrap (Bilinear.clip (IntOp.addi (Bilinear.cell (Bilinear.scaled (P (ix4 b h v (0 : Fin 2))))) 1#32)) := by
  unfold RefRead.val_main_v68
  exact (concat_at0 _ _ b h v).trans (col66 P b h v 0)

theorem pair_v68_1 : RefRead.val_main_v68 (F := Ideal) P (ix4 b h v (1 : Fin 2)) = Bilinear.wrap (Bilinear.clip (Bilinear.cell (Bilinear.scaled (P (ix4 b h v (1 : Fin 2)))))) := by
  unfold RefRead.val_main_v68
  exact (concat_at1 _ _ b h v).trans (col67 P b h v 0)

theorem pair_v82_0 : RefRead.val_main_v82 (F := Ideal) P (ix4 b h v (0 : Fin 2)) = Bilinear.wrap (Bilinear.clip (IntOp.addi (Bilinear.cell (Bilinear.scaled (P (ix4 b h v (0 : Fin 2))))) 1#32)) := by
  unfold RefRead.val_main_v82
  exact (concat_at0 _ _ b h v).trans (col80 P b h v 0)

theorem pair_v82_1 : RefRead.val_main_v82 (F := Ideal) P (ix4 b h v (1 : Fin 2)) = Bilinear.wrap (Bilinear.clip (IntOp.addi (Bilinear.cell (Bilinear.scaled (P (ix4 b h v (1 : Fin 2))))) 1#32)) := by
  unfold RefRead.val_main_v82
  exact (concat_at1 _ _ b h v).trans (col81 P b h v 0)

/-! The four lookups: each reads the table's row and column named by its corner, feature `f`. -/

/-- The corner (lower, lower). -/
theorem g41 (f : Fin 128) : RefRead.val_main_v41 (F := Ideal) P E (ix4 b h v f)
    = E (ix3 (Bilinear.row (Bilinear.clip (Bilinear.cell (Bilinear.scaled (P (ix4 b h v (0 : Fin 2))))))) (Bilinear.row (Bilinear.clip (Bilinear.cell (Bilinear.scaled (P (ix4 b h v (1 : Fin 2))))))) f) := by
  unfold RefRead.val_main_v41
  exact gather_at E _ b h v f _ _ (by rw [pair_v40_0 P b h v]; rfl) (by rw [pair_v40_1 P b h v]; rfl)

/-- The corner (lower, upper). -/
theorem g55 (f : Fin 128) : RefRead.val_main_v55 (F := Ideal) P E (ix4 b h v f)
    = E (ix3 (Bilinear.row (Bilinear.clip (Bilinear.cell (Bilinear.scaled (P (ix4 b h v (0 : Fin 2))))))) (Bilinear.row (Bilinear.clip (IntOp.addi (Bilinear.cell (Bilinear.scaled (P (ix4 b h v (1 : Fin 2))))) 1#32))) f) := by
  unfold RefRead.val_main_v55
  exact gather_at E _ b h v f _ _ (by rw [pair_v54_0 P b h v]; rfl) (by rw [pair_v54_1 P b h v]; rfl)

/-- The corner (upper, lower). -/
theorem g69 (f : Fin 128) : RefRead.val_main_v69 (F := Ideal) P E (ix4 b h v f)
    = E (ix3 (Bilinear.row (Bilinear.clip (IntOp.addi (Bilinear.cell (Bilinear.scaled (P (ix4 b h v (0 : Fin 2))))) 1#32))) (Bilinear.row (Bilinear.clip (Bilinear.cell (Bilinear.scaled (P (ix4 b h v (1 : Fin 2))))))) f) := by
  unfold RefRead.val_main_v69
  exact gather_at E _ b h v f _ _ (by rw [pair_v68_0 P b h v]; rfl) (by rw [pair_v68_1 P b h v]; rfl)

/-- The corner (upper, upper). -/
theorem g83 (f : Fin 128) : RefRead.val_main_v83 (F := Ideal) P E (ix4 b h v f)
    = E (ix3 (Bilinear.row (Bilinear.clip (IntOp.addi (Bilinear.cell (Bilinear.scaled (P (ix4 b h v (0 : Fin 2))))) 1#32))) (Bilinear.row (Bilinear.clip (IntOp.addi (Bilinear.cell (Bilinear.scaled (P (ix4 b h v (1 : Fin 2))))) 1#32))) f) := by
  unfold RefRead.val_main_v83
  exact gather_at E _ b h v f _ _ (by rw [pair_v82_0 P b h v]; rfl) (by rw [pair_v82_1 P b h v]; rfl)

/-- The first fractional part, against the integer cell read back as a real. -/
theorem fx_at (z : Fin 1) : RefRead.val_main_v86 (F := Ideal) P (ix4 b h v z) = Bilinear.fracI (Bilinear.scaled (P (ix4 b h v (0 : Fin 2)))) := by
  rw [RefRead.val_main_v86_apply, show RefRead.idx_main_v86 (ix4 b h v z) = ix3 b h v from idx_col b h v z,
    RefRead.val_main_v85_apply, RefRead.val_main_v84_apply, sx_at P b h v, cx_at P b h v]
  rfl

/-- The second fractional part. -/
theorem fy_at (z : Fin 1) : RefRead.val_main_v89 (F := Ideal) P (ix4 b h v z) = Bilinear.fracI (Bilinear.scaled (P (ix4 b h v (1 : Fin 2)))) := by
  rw [RefRead.val_main_v89_apply, show RefRead.idx_main_v89 (ix4 b h v z) = ix3 b h v from idx_col b h v z,
    RefRead.val_main_v88_apply, RefRead.val_main_v87_apply, sy_at P b h v, cy_at P b h v]
  rfl

/-- The result at `(b, h, v, f)`: the four corners combined along the first axis, then along the second. -/
theorem result_at (f : Fin 128) : RefRead.val_main_v110 (F := Ideal) P E (ix4 b h v f)
    = Bilinear.refAt (P (ix4 b h v (0 : Fin 2))) (P (ix4 b h v (1 : Fin 2))) (fun r c => E (ix3 r c f)) := by
  rw [RefRead.val_main_v110_apply, RefRead.val_main_v107_apply, RefRead.val_main_v96_apply, RefRead.val_main_v93_apply, RefRead.val_main_v92_apply, RefRead.val_main_v91_apply, RefRead.val_main_v90_apply, RefRead.val_main_cst_30_apply, RefRead.val_main_v95_apply, RefRead.val_main_v94_apply, RefRead.val_main_v106_apply, RefRead.val_main_v105_apply, RefRead.val_main_v104_apply, RefRead.val_main_cst_32_apply, RefRead.val_main_v109_apply, RefRead.val_main_v103_apply, RefRead.val_main_v100_apply, RefRead.val_main_v99_apply, RefRead.val_main_v98_apply, RefRead.val_main_v97_apply, RefRead.val_main_cst_31_apply, RefRead.val_main_v102_apply, RefRead.val_main_v101_apply, RefRead.val_main_v108_apply]
  rw [show RefRead.idx_main_v92 (ix4 b h v f) = ix4 b h v (0 : Fin 1) from idx_feat b h v f,
    show RefRead.idx_main_v94 (ix4 b h v f) = ix4 b h v (0 : Fin 1) from idx_feat b h v f,
    show RefRead.idx_main_v99 (ix4 b h v f) = ix4 b h v (0 : Fin 1) from idx_feat b h v f,
    show RefRead.idx_main_v101 (ix4 b h v f) = ix4 b h v (0 : Fin 1) from idx_feat b h v f,
    show RefRead.idx_main_v106 (ix4 b h v f) = ix4 b h v (0 : Fin 1) from idx_feat b h v f,
    show RefRead.idx_main_v108 (ix4 b h v f) = ix4 b h v (0 : Fin 1) from idx_feat b h v f]
  rw [g41 P E b h v f, g55 P E b h v f, g69 P E b h v f, g83 P E b h v f, fx_at P b h v 0, fy_at P b h v 0]
  rfl

end Stages

/-- The reference's result array is the specification's, index by index. -/
theorem val_eq (P : (⟨S8x256x256x2, .f32⟩ : BufTy).Contents (Elt Ideal)) (E : (⟨S64x64x128, .f32⟩ : BufTy).Contents (Elt Ideal)) :
    RefRead.val_main_v110 (F := Ideal) P E = Bilinear.refResult P E := by
  funext i
  obtain ⟨b, h, v, f, rfl⟩ : ∃ (b : Fin 8) (h v : Fin 256) (f : Fin 128), i = ix4 b h v f :=
    ⟨i 0, i 1, i 2, i 3, eq_ix4 i⟩
  exact result_at P E b h v f

/-- Every run of the idealized reference program ends with its result array at `Cert.Bilinear.refResult` of the two argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v110)
        = Cert.Bilinear.refResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ hr c => ⟨(hr c).1.trans ((RefRead.val_main_v110_eq m c).trans (val_eq _ _)), (hr c).2⟩)
    (RefRun.run (F := Ideal) m ρ)

end Cert.ReferenceIdeal.RValue

end
-- ==== Proof.lean ====
/-
  The certificate of a bilinear interpolation kernel against its reference.

  Both programs read a point's two coordinates, scale them by 64, and interpolate a 64 × 64 table of 128-feature rows
  between the four grid corners around the point (corners clamped to the table). The kernel builds, for each block of
  256 points, a 256 × 4096 matrix holding each point's four corner weights at the corners' flat positions, and
  multiplies it with the table flattened to 4096 rows; the reference looks the four corners up and combines them
  along the first axis, then the second.

  The two agree as real functions (a sum over 4096 positions of weights that vanish off the four corners is the four
  weighted corners; the two groupings of the weights are one polynomial), provided the fractional parts agree: the
  kernel takes them against the floor, the reference against the floor converted to a 32-bit integer and back. That
  is the same number exactly when the floor of 64 · p fits 32 bits, which the precondition states of every position
  (-2^25 ≤ p < 2^25) beside the finiteness of all inputs.

  Modules: Bilinear (the two scalar formulas and the two result arrays), Interp (the scalar identity), Bridge (the
  arrays agree), PreFacts (the precondition read as facts about reals), KernelValue (the kernel program's result
  array), RefValue (the reference program's result array).
-/
import proofs.«125254_j16896401342851_1_alg».proof.Defs
import proofs.«125254_j16896401342851_1_alg».proof.Proof.Gen.Kernel
import proofs.«125254_j16896401342851_1_alg».proof.Proof.Gen.Kernel.Frame
import proofs.«125254_j16896401342851_1_alg».proof.Proof.Gen.KernelIdeal
import proofs.«125254_j16896401342851_1_alg».proof.Proof.Gen.KernelIdeal.Frame
import proofs.«125254_j16896401342851_1_alg».proof.Proof.Gen.ReferenceIdeal
import proofs.«125254_j16896401342851_1_alg».proof.Proof.RefRun
import proofs.«125254_j16896401342851_1_alg».proof.Proof.Gen.Pre_finite_inputs
import proofs.«125254_j16896401342851_1_alg».proof.Proof.PreFacts
import proofs.«125254_j16896401342851_1_alg».proof.Proof.Bridge
import proofs.«125254_j16896401342851_1_alg».proof.Proof.KernelValue
import proofs.«125254_j16896401342851_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments, the kernel ends at the contraction of the weight rows with the flattened
    table and the reference at the two-stage combination of the four corners: under the precondition one array. -/
theorem algebraic : Cert.algebraic_KernelIdeal_ReferenceIdeal := by
  intro m ρ m' ρ' hpre hagree
  refine ⟨fun c => Cert.Bilinear.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2]
  obtain ⟨hP, hE⟩ := Cert.PreFacts.of_pre _ _ (hpre c)
  exact (Cert.Bilinear.kernelResult_eq_refResult _ _ hP hE).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
